-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S2048x1024 : Shape := ⟨2, ![2048, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024 .f32) (main_arg8 : FVec F S1024 .f32) (main_arg9 : FVec F S1024 .f32) (main_arg10 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S2048x1024 .f32) (main_arg5 : FVec F S2048x1024 .f32) (main_arg6 : FVec F S2048x1024 .f32) (main_arg7 : FVec F S1024 .f32) (main_arg8 : FVec F S1024 .f32) (main_arg9 : FVec F S1024 .f32) (main_arg10 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S4096x1024 .f32) (main_arg2 : FVec F S4096x1024 .f32) (main_arg3 : FVec F S2048x1024 .f32) (main_arg4 : FVec F S2048x1024 .f32) (main_arg5 : FVec F S2048x1024 .f32) (main_arg6 : FVec F S2048x1024 .f32) (main_arg7 : FVec F S1024 .f32) (main_arg8 : FVec F S1024 .f32) (main_arg9 : FVec F S1024 .f32) (main_arg10 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S4096x1024 : Shape := ⟨2, ![4096, 1024]⟩
abbrev S2048x1024 : Shape := ⟨2, ![2048, 1024]⟩
abbrev S1024 : Shape := ⟨1, ![1024]⟩
abbrev S2048x4096 : Shape := ⟨2, ![2048, 4096]⟩
abbrev S4096 : Shape := ⟨1, ![4096]⟩
abbrev S1x4096 : Shape := ⟨2, ![1, 4096]⟩
abbrev S512x1024 : Shape := ⟨2, ![512, 1024]⟩
abbrev S_ : Shape := ⟨0, ![]⟩
abbrev S1024x4096 : Shape := ⟨2, ![1024, 4096]⟩
abbrev S512x4096 : Shape := ⟨2, ![512, 4096]⟩

abbrev nBuf : Space → Nat
  | .hbm => 17
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S2048x4096, .f32⟩
  | .hbm, ⟨12, _⟩ => ⟨S2048x4096, .bf16⟩
  | .hbm, ⟨13, _⟩ => ⟨S4096, .f32⟩
  | .hbm, ⟨14, _⟩ => ⟨S1x4096, .f32⟩
  | .hbm, ⟨15, _⟩ => ⟨S4096x1024, .f32⟩
  | .hbm, ⟨16, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x4096, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S2048x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  concatenates_S2048x1024_S2048x1024_S2048x1024_S2048x1024_S2048x4096_d1 : Shape.Concatenates [S2048x1024, S2048x1024, S2048x1024, S2048x1024] S2048x4096 1
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  inb_S2048x4096_S1024x4096_0_0 : ∀ a, (![0, 0] : Fin 2 → Nat) a + S1024x4096.size a ≤ S2048x4096.size a
  h_S1024x4096 : 0 < S1024x4096.numel
  inb_S2048x4096_S1024x4096_1024_0 : ∀ a, (![1024, 0] : Fin 2 → Nat) a + S1024x4096.size a ≤ S2048x4096.size a
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  slices_S512x4096_o0_0_S512x1024 : S512x4096.Slices ![0, 0] S512x1024
  slices_S512x4096_o0_1024_S512x1024 : S512x4096.Slices ![0, 1024] S512x1024
  slices_S512x4096_o0_2048_S512x1024 : S512x4096.Slices ![0, 2048] S512x1024
  slices_S512x4096_o0_3072_S512x1024 : S512x4096.Slices ![0, 3072] S512x1024
  dot_S512x1024_S1024x4096_S512x4096_1_0_0_1_n_n_wf : DotDims.WF S512x1024 S1024x4096 S512x4096 [1] [0] [0] [1] [] []
  hcc0_scratch1 : 11 + S_.numel ≤ 12
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .f32 = 32 ∨ (Rect.block (s := S4096x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_5 i = cc0_transform_5 i'
  hinb0_4 : ∀ (i : grid0.Coords) a, (cc0_transform_5 i a + 1) * S512x1024.size a ≤ S4096x1024.size a
  hwx0_4 : ∀ i : grid0.Coords, EltTy.bits .f32 = 32 ∨ (Rect.block (s := S4096x1024) S512x1024.size (cc0_transform_5 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_6 i = cc0_transform_6 i'
  hinb0_5 : ∀ (i : grid0.Coords) a, (cc0_transform_6 i a + 1) * S512x1024.size a ≤ S4096x1024.size a
  hwx0_5 : ∀ i : grid0.Coords, EltTy.bits .f32 = 32 ∨ (Rect.block (s := S4096x1024) S512x1024.size (cc0_transform_6 i) (hinb0_5 i)).WholeWords (EltTy.packing .f32)

variable [Facts₀]

abbrev cc0_scratch1 : DmaSems sig S_ := SemArray.consecutive 11 S_ hcc0_scratch1
def dot_S512x1024_S1024x4096_S512x4096_1_0_0_1_n_n : DotDims S512x1024 S1024x4096 S512x4096 where
  lhsContracting := [1]
  rhsContracting := [0]
  lhsNonContracting := [0]
  rhsNonContracting := [1]
  lhsBatch := []
  rhsBatch := []
  wf := dot_S512x1024_S1024x4096_S512x4096_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S512x1024.size cc0_transform_5 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S512x1024.size cc0_transform_6 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S2048x1024 : Shape := ⟨2, ![2048, 1024]⟩
abbrev S1024 : Shape := ⟨1, ![1024]⟩
abbrev S4096x2048 : Shape := ⟨2, ![4096, 2048]⟩
abbrev S2048x4096 : Shape := ⟨2, ![2048, 4096]⟩
abbrev S4096 : Shape := ⟨1, ![4096]⟩
abbrev S4096x4096 : Shape := ⟨2, ![4096, 4096]⟩
abbrev S1x4096 : Shape := ⟨2, ![1, 4096]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S4096x2048, .f32⟩
  | .hbm, ⟨12, _⟩ => ⟨S2048x4096, .f32⟩
  | .hbm, ⟨13, _⟩ => ⟨S4096, .f32⟩
  | .hbm, ⟨14, _⟩ => ⟨S4096x4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  concatenates_S4096x1024_S4096x1024_S4096x2048_d1 : Shape.Concatenates [S4096x1024, S4096x1024] S4096x2048 1
  concatenates_S2048x1024_S2048x1024_S2048x1024_S2048x1024_S2048x4096_d1 : Shape.Concatenates [S2048x1024, S2048x1024, S2048x1024, S2048x1024] S2048x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  bcast_S_S4096x1024 : S_.BroadcastsInDim S4096x1024 (![] : Fin 0 → Fin S4096x1024.rank)
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  dot_S4096x2048_S2048x4096_S4096x4096_1_0_0_1_n_n_wf : DotDims.WF S4096x2048 S2048x4096 S4096x4096 [1] [0] [0] [1] [] []

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf

class Facts : Prop extends Facts₀ where

variable [Facts]
-- ==== Proof.Kernel.Base.lean ====
/-
  The launch side of `Kernel`'s frame: what the region finds in each buffer after the four host operations before it
  (the two concatenations, the change of format, the reshape), each window's block at a grid point, that an input's
  staging buffer holds its block at every point, and the names the body's run is stated over — the staging memrefs,
  the weights' scratch buffer, the weights' array left in HBM that the body copies itself, and the one DMA semaphore
  of its own.
-/
import proofs.«422948_j83262236000379_3_alg».proof.Proof.Gen.Kernel.Launch
import proofs.«422948_j83262236000379_3_alg».proof.Proof.Gen.Kernel.Skeleton
import proofs.«422948_j83262236000379_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region -/

/-- Core `c`'s TensorCore buffers when the region is entered: after the four host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, its
    block index has not moved), for any proof data whose array is the region-entry contents and whose body leaves the
    block in place. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (unfetched, its
    block index has not moved), for any proof data whose array is the region-entry contents and whose body leaves the
    block in place. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (unfetched, its
    block index has not moved), for any proof data whose array is the region-entry contents and whose body leaves the
    block in place. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (unfetched, its
    block index has not moved), for any proof data whose array is the region-entry contents and whose body leaves the
    block in place. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The names the body's run is stated over -/

/-- Each window's current staging memref at point `t`, and that it is a whole buffer. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_4 (t : Fin cfg0.N) : Memref sig .tc .vmem S512x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .f32 := win0_5.stage (cfg0.slots t 5)
abbrev hs0_5 (t : Fin cfg0.N) : (ms0_5 t).IsWhole := hstage0_5 ((cfg0.slots t 5).cast nbuf0_5)
abbrev ms0_3 (t : Fin cfg0.N) : Memref sig .tc .vmem S1x4096 .f32 := win0_3.stage (cfg0.slots t 3)
abbrev hs0_3 (t : Fin cfg0.N) : (ms0_3 t).IsWhole := hstage0_3 ((cfg0.slots t 3).cast nbuf0_3)
/-- The weights' scratch buffer, whole. -/
abbrev scM : Memref sig .tc .vmem S2048x4096 .bf16 := Memref.whole cc0_scratch0
/-- The weights' array, left in HBM, whole. -/
abbrev hbM : Memref sig .tc .hbm S2048x4096 .bf16 := Memref.whole main_v1
/-- A memref's buffer on core `c`: its contents type, and it held whole at `f`. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The body's own DMA semaphore: cell 11 of the pool, no window's. -/
abbrev osem0 : Fin 1 → SemLoc sig := fun _ => SemLoc.dma 11
theorem ownSemFacts0 : Pipeline.OwnSemFacts spec0 osem0 := by decide
/-- The cell at zero. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 11) 0) := by
  rw [Pipeline.ownSems0_eq_of_list c osem0 [0] (by decide) (by decide)]; rfl
/-- The array the body moves itself: unscoped, no window's. -/
def H0 : Finset (Ref sig .tc) := {main_v1}
theorem H0_sub : H0 ⊆ Pipeline.restRefs sig spec0 := by decide
/-- Its points-to at the region-entry contents. -/
theorem hbmPts0_eq (c : Dev nD) :
    (bigSep H0 (fun b => ((c : Thread nD τ).loc b) ↦{fullShare} V m c b) : sProp 𝕄) = iprop(hbPt c hbM (V m c main_v1)) := by
  rw [BI.bigSep_eq_bigSepL_of_eq [main_v1] (by decide) (by decide)]; rfl

/-- The launch's invariant, conjunct by conjunct: the scratch buffer at some contents, the generator register at
    some state, the own cell at zero, the weights' array at its region-entry contents. -/
theorem PhiD0_eq (c : Dev nD) :
    (Pipeline.ΦD osem0 spec0 H0 (V m) c : sProp 𝕄)
      = iprop(iprop((∃ d, owns (c : Thread nD τ) scM fullShare d)) ∗ (∃ r, prngReg c r) ∗ iprop(semVal ((c : Thread nD τ), SemLoc.dma 11) 0) ∗ iprop(hbPt c hbM (V m c main_v1))) := by
  rw [Pipeline.ΦD_eq, scopedRest0_eq, ownSems00_eq, hbmPts0_eq]; simp only [scM, owns_whole]; try rfl

end Cert.Kernel.Fr

end
-- ==== Proof.Kernel.Runs.lean ====
/-
  The kernel body of `Kernel` run once, on any whole staging memrefs, in its two control cases.

  At the first point of a core's share of the grid (second coordinate 0) the body copies the whole weights array from
  HBM into its scratch buffer on its own DMA semaphore and waits for the copy; at the other points it finds the scratch
  as the point before left it. In both cases it then loads the input, hidden and cell blocks, the bias row and the
  lower and upper halves of the scratch, and stores the new hidden block and the new cell block whole.
  So: given the scratch at ANY contents in the first case, or at contents `D` in the second, the body ends with the
  inputs as they were, the scratch at the weights array's contents (first case) or still at `D` (second), and the two
  output buffers at the payloads `k0_pay3` / `k0_pay2` of the loaded blocks and of the two halves of the scratch.
-/
import proofs.«422948_j83262236000379_3_alg».proof.Proof.Kernel.Base
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What the loads read -/

theorem hz2 : (![0, 0] : Fin 2 → Nat) = fun _ => 0 := by
  funext a; match a with | ⟨0, _⟩ => rfl | ⟨1, _⟩ => rfl

/-- Rows 0..1023 of a [2048, 4096] array: what the body loads as the weights of the input. -/
def wlo (D : Vec F S2048x4096 .bf16) : Vec F S1024x4096 .bf16 :=
  View.ld D (Rect.unit (s := S2048x4096) ![0, 0] S1024x4096.size inb_S2048x4096_S1024x4096_0_0)
/-- Rows 1024..2047: the weights of the hidden state. -/
def whi (D : Vec F S2048x4096 .bf16) : Vec F S1024x4096 .bf16 :=
  View.ld D (Rect.unit (s := S2048x4096) ![1024, 0] S1024x4096.size inb_S2048x4096_S1024x4096_1024_0)

/-- What a copy of the whole weights array delivers: the array's contents, element for element. -/
def wts (c : Dev nD) (fh : HbBuf (F := F) c hbM) : Vec F S2048x4096 .bf16 :=
  ReadAs.same.apply (View.read (Elt F) (Memref.whole main_v1 : Memref sig .tc .hbm S2048x4096 .bf16).view fh)

/-- One whole-buffer piece is its payload. -/
theorem canon_whole (D : Vec F S2048x4096 .bf16) :
    View.canon [(⟨Rect.whole S2048x4096, D⟩ : View.Piece (Elt F) S2048x4096 .bf16)] = D :=
  View.canon_unit_zero (S := S2048x4096) (off := fun _ => 0) rfl (fun a => Nat.le_of_eq (Nat.zero_add _)) D

theorem cover_whole (D : Vec F S2048x4096 .bf16) (y : S2048x4096.Idx) :
    ∃ p ∈ [(⟨Rect.whole S2048x4096, D⟩ : View.Piece (Elt F) S2048x4096 .bf16)], y ∈ p.1.set :=
  ⟨_, List.mem_singleton_self _, by rw [Rect.set_whole]; exact Finset.mem_univ y⟩

/-- A load of the lower half after a whole-buffer write of `D` reads `D`'s lower half; likewise the upper. -/
theorem readCov_lo (v : View sig .tc .vmem S2048x4096 .bf16) (D : Vec F S2048x4096 .bf16) :
    v.readCov [(⟨Rect.whole S2048x4096, D⟩ : View.Piece (Elt F) S2048x4096 .bf16)]
      (Rect.unit (s := S2048x4096) ![0, 0] S1024x4096.size inb_S2048x4096_S1024x4096_0_0).toLoadRect = wlo D := by
  rw [View.readCov_eq_canon_ld _ _ _ (cover_whole D), canon_whole]; rfl
theorem readCov_hi (v : View sig .tc .vmem S2048x4096 .bf16) (D : Vec F S2048x4096 .bf16) :
    v.readCov [(⟨Rect.whole S2048x4096, D⟩ : View.Piece (Elt F) S2048x4096 .bf16)]
      (Rect.unit (s := S2048x4096) ![1024, 0] S1024x4096.size inb_S2048x4096_S1024x4096_1024_0).toLoadRect = whi D := by
  rw [View.readCov_eq_canon_ld _ _ _ (cover_whole D), canon_whole]; rfl

/-- A buffer written whole with one store through the zero-offset rectangle reads the stored value. -/
theorem read_store_whole {S : Shape} {e : EltTy} (v : View sig .tc .vmem S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h inb]

/-- The payloads of the loads as the run names them at a point that copies the weights in (loads through whole
    zero-offset rectangles of the input buffers, covered loads of the scratch after the copy) are the payloads of
    the buffers' contents and the two halves of what the copy delivered. -/
theorem pay3_copy (v : View sig .tc .vmem S2048x4096 .bf16) (x0 x1 x2 : Vec F S512x1024 .f32) (x3 : Vec F S1x4096 .f32) (D : Vec F S2048x4096 .bf16) :
    k0_pay3 (View.ld x0 (Rect.unit (s := S512x1024) ![0, 0] S512x1024.size inb_S512x1024_S512x1024_0_0))
        (View.ld x1 (Rect.unit (s := S512x1024) ![0, 0] S512x1024.size inb_S512x1024_S512x1024_0_0))
        (v.readCov [(⟨Rect.whole S2048x4096, D⟩ : View.Piece (Elt F) S2048x4096 .bf16)] (Rect.unit (s := S2048x4096) ![0, 0] S1024x4096.size inb_S2048x4096_S1024x4096_0_0).toLoadRect)
        (v.readCov [(⟨Rect.whole S2048x4096, D⟩ : View.Piece (Elt F) S2048x4096 .bf16)] (Rect.unit (s := S2048x4096) ![1024, 0] S1024x4096.size inb_S2048x4096_S1024x4096_1024_0).toLoadRect)
        (View.ld x3 (Rect.unit (s := S1x4096) ![0, 0] S1x4096.size inb_S1x4096_S1x4096_0_0))
        (View.ld x2 (Rect.unit (s := S512x1024) ![0, 0] S512x1024.size inb_S512x1024_S512x1024_0_0))
      = k0_pay3 x0 x1 (wlo D) (whi D) x3 x2 := by
  rw [readCov_lo, readCov_hi, View.ld_unit_zero (S := S512x1024) hz2, View.ld_unit_zero (S := S512x1024) hz2,
    View.ld_unit_zero (S := S512x1024) hz2, View.ld_unit_zero (S := S1x4096) hz2]
theorem pay2_copy (v : View sig .tc .vmem S2048x4096 .bf16) (x0 x1 x2 : Vec F S512x1024 .f32) (x3 : Vec F S1x4096 .f32) (D : Vec F S2048x4096 .bf16) :
    k0_pay2 (View.ld x0 (Rect.unit (s := S512x1024) ![0, 0] S512x1024.size inb_S512x1024_S512x1024_0_0))
        (View.ld x1 (Rect.unit (s := S512x1024) ![0, 0] S512x1024.size inb_S512x1024_S512x1024_0_0))
        (v.readCov [(⟨Rect.whole S2048x4096, D⟩ : View.Piece (Elt F) S2048x4096 .bf16)] (Rect.unit (s := S2048x4096) ![0, 0] S1024x4096.size inb_S2048x4096_S1024x4096_0_0).toLoadRect)
        (v.readCov [(⟨Rect.whole S2048x4096, D⟩ : View.Piece (Elt F) S2048x4096 .bf16)] (Rect.unit (s := S2048x4096) ![1024, 0] S1024x4096.size inb_S2048x4096_S1024x4096_1024_0).toLoadRect)
        (View.ld x3 (Rect.unit (s := S1x4096) ![0, 0] S1x4096.size inb_S1x4096_S1x4096_0_0))
        (View.ld x2 (Rect.unit (s := S512x1024) ![0, 0] S512x1024.size inb_S512x1024_S512x1024_0_0))
      = k0_pay2 x0 x1 (wlo D) (whi D) x3 x2 := by
  rw [readCov_lo, readCov_hi, View.ld_unit_zero (S := S512x1024) hz2, View.ld_unit_zero (S := S512x1024) hz2,
    View.ld_unit_zero (S := S512x1024) hz2, View.ld_unit_zero (S := S1x4096) hz2]
/-- The same at a point that does not: plain loads of the scratch at contents `D`. -/
theorem pay3_keep (x0 x1 x2 : Vec F S512x1024 .f32) (x3 : Vec F S1x4096 .f32) (D : Vec F S2048x4096 .bf16) :
    k0_pay3 (View.ld x0 (Rect.unit (s := S512x1024) ![0, 0] S512x1024.size inb_S512x1024_S512x1024_0_0))
        (View.ld x1 (Rect.unit (s := S512x1024) ![0, 0] S512x1024.size inb_S512x1024_S512x1024_0_0))
        (View.ld D (Rect.unit (s := S2048x4096) ![0, 0] S1024x4096.size inb_S2048x4096_S1024x4096_0_0))
        (View.ld D (Rect.unit (s := S2048x4096) ![1024, 0] S1024x4096.size inb_S2048x4096_S1024x4096_1024_0))
        (View.ld x3 (Rect.unit (s := S1x4096) ![0, 0] S1x4096.size inb_S1x4096_S1x4096_0_0))
        (View.ld x2 (Rect.unit (s := S512x1024) ![0, 0] S512x1024.size inb_S512x1024_S512x1024_0_0))
      = k0_pay3 x0 x1 (wlo D) (whi D) x3 x2 := by
  rw [View.ld_unit_zero (S := S512x1024) hz2, View.ld_unit_zero (S := S512x1024) hz2,
    View.ld_unit_zero (S := S512x1024) hz2, View.ld_unit_zero (S := S1x4096) hz2]; rfl
theorem pay2_keep (x0 x1 x2 : Vec F S512x1024 .f32) (x3 : Vec F S1x4096 .f32) (D : Vec F S2048x4096 .bf16) :
    k0_pay2 (View.ld x0 (Rect.unit (s := S512x1024) ![0, 0] S512x1024.size inb_S512x1024_S512x1024_0_0))
        (View.ld x1 (Rect.unit (s := S512x1024) ![0, 0] S512x1024.size inb_S512x1024_S512x1024_0_0))
        (View.ld D (Rect.unit (s := S2048x4096) ![0, 0] S1024x4096.size inb_S2048x4096_S1024x4096_0_0))
        (View.ld D (Rect.unit (s := S2048x4096) ![1024, 0] S1024x4096.size inb_S2048x4096_S1024x4096_1024_0))
        (View.ld x3 (Rect.unit (s := S1x4096) ![0, 0] S1x4096.size inb_S1x4096_S1x4096_0_0))
        (View.ld x2 (Rect.unit (s := S512x1024) ![0, 0] S512x1024.size inb_S512x1024_S512x1024_0_0))
      = k0_pay2 x0 x1 (wlo D) (whi D) x3 x2 := by
  rw [View.ld_unit_zero (S := S512x1024) hz2, View.ld_unit_zero (S := S512x1024) hz2,
    View.ld_unit_zero (S := S512x1024) hz2, View.ld_unit_zero (S := S1x4096) hz2]; rfl

/-! ## The branch condition -/

/-- The body's one branch: the second grid coordinate is 0. -/
abbrev cond0 (i : grid0.Coords) : Prop := (Scalar.cmpi .ne (Scalar.extui (Scalar.cmpi .eq (BitVec.ofNat 32 (i 1).val) 0#32)) 0#32) = 1#1
/-- It holds at points 0 and 4 of the eight. -/
theorem hcond0 : ∀ t : Fin cfg0.N, cond0 (grid0.coords t) ↔ t.val % 4 = 0 :=
  (by decide +kernel : ∀ t : Fin grid0.N, cond0 (grid0.coords t) ↔ t.val % 4 = 0)

/-! ## The two runs -/

set_option maxHeartbeats 1000000 in
/-- The first point of a core's share: the copy, its wait, the loads and the two stores. -/
theorem runA (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x4096 .f32) (harg5 : arg5.IsWhole) (arg7 : Memref sig .tc .vmem S512x1024 .f32) (harg7 : arg7.IsWhole) (arg8 : Memref sig .tc .vmem S512x1024 .f32) (harg8 : arg8.IsWhole) (arg9 : Memref sig .tc .vmem S2048x4096 .bf16) (harg9 : arg9.IsWhole) (hc : cond0 i)
    (x0 x1 x2 : Vec F S512x1024 .f32) (x3 : Vec F S1x4096 .f32) (fh : HbBuf (F := F) c hbM) (W : Waits sig Unit) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg7 fullShare d) ∗ (∃ d, owns (c : Thread nD τ) arg8 fullShare d) ∗ (∃ d, owns (c : Thread nD τ) arg9 fullShare d)
        ∗ semVal ((c : Thread nD τ), SemLoc.dma 11) 0 ∗ hbPt c hbM fh ∗ owes (c : Thread nD τ) 0 W
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg7 fullShare (k0_pay3 x0 x1 (wlo (wts c fh)) (whi (wts c fh)) x3 x2) ∗ owns (c : Thread nD τ) arg8 fullShare (k0_pay2 x0 x1 (wlo (wts c fh)) (whi (wts c fh)) x3 x2)
            ∗ owns (c : Thread nD τ) arg9 fullShare (wts c fh)
            ∗ semVal ((c : Thread nD τ), SemLoc.dma 11) 0 ∗ hbPt c hbM fh ∗ (∃ W', owes (c : Thread nD τ) 0 W')) -∗ K ⟨⟩))
      ⊢ wp frame (wpE (defs₀ (F := F)) Variants.none c none) Set.univ (cc0__lstm_kernel i arg2 harg2 arg3 harg3 arg4 harg4 arg5 harg5 (Memref.whole main_v1) (Memref.isWhole_whole _) arg7 harg7 arg8 harg8 arg9 harg9 cc0_scratch1) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%d7, %f7, -, H7⟩, ⟨%d8, %f8, -, H8⟩, ⟨%d9, %f9, -, H9⟩, Hq, Hh, HW, Hk⟩
  obtain rfl := harg2.eq_unread hf0; obtain rfl := harg3.eq_unread hf1; obtain rfl := harg4.eq_unread hf2; obtain rfl := harg5.eq_unread hf3
  sl_exec (disch := first | exact hc)
  sl_step
  sl_unfold_run_names
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H7]
  · iexists _; isplitr; swap; · iexact H7
    ipureintro
    rw [read_store_whole _ _ hz2]
    simp only [View.readAt_eq_ld, harg2.read_unread, harg3.read_unread, harg4.read_unread, harg5.read_unread]
    exact pay3_copy arg9.view x0 x1 x2 x3 (wts c fh)
  isplitl [H8]
  · iexists _; isplitr; swap; · iexact H8
    ipureintro
    rw [read_store_whole _ _ hz2]
    simp only [View.readAt_eq_ld, harg2.read_unread, harg3.read_unread, harg4.read_unread, harg5.read_unread]
    exact pay2_copy arg9.view x0 x1 x2 x3 (wts c fh)
  isplitl [H9]
  · iexists _; isplitr; swap; · iexact H9
    ipureintro; exact View.read_writes_whole _ _ _
  isplitl [Hq]; · iexact Hq
  isplitl [Hh]; · iexact Hh
  iexists _; iexact HW

set_option maxHeartbeats 1000000 in
/-- Every other point: no copy; the scratch is read as it was found and left so. -/
theorem runB (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x4096 .f32) (harg5 : arg5.IsWhole) (arg7 : Memref sig .tc .vmem S512x1024 .f32) (harg7 : arg7.IsWhole) (arg8 : Memref sig .tc .vmem S512x1024 .f32) (harg8 : arg8.IsWhole) (arg9 : Memref sig .tc .vmem S2048x4096 .bf16) (harg9 : arg9.IsWhole) (hc : ¬cond0 i)
    (x0 x1 x2 : Vec F S512x1024 .f32) (x3 : Vec F S1x4096 .f32) (D : Vec F S2048x4096 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg7 fullShare d) ∗ (∃ d, owns (c : Thread nD τ) arg8 fullShare d) ∗ owns (c : Thread nD τ) arg9 fullShare D
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg7 fullShare (k0_pay3 x0 x1 (wlo D) (whi D) x3 x2) ∗ owns (c : Thread nD τ) arg8 fullShare (k0_pay2 x0 x1 (wlo D) (whi D) x3 x2)
            ∗ owns (c : Thread nD τ) arg9 fullShare D) -∗ K ⟨⟩))
      ⊢ wp frame (wpE (defs₀ (F := F)) Variants.none c none) Set.univ (cc0__lstm_kernel i arg2 harg2 arg3 harg3 arg4 harg4 arg5 harg5 (Memref.whole main_v1) (Memref.isWhole_whole _) arg7 harg7 arg8 harg8 arg9 harg9 cc0_scratch1) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%d7, %f7, -, H7⟩, ⟨%d8, %f8, -, H8⟩, ⟨%f9, %hf9, H9⟩, Hk⟩
  obtain rfl := harg2.eq_unread hf0; obtain rfl := harg3.eq_unread hf1; obtain rfl := harg4.eq_unread hf2; obtain rfl := harg5.eq_unread hf3
  obtain rfl := harg9.eq_unread hf9
  sl_exec (disch := first | exact hc)
  sl_step
  sl_unfold_run_names
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H7]
  · iexists _; isplitr; swap; · iexact H7
    ipureintro
    rw [read_store_whole _ _ hz2]
    simp only [View.readAt_eq_ld, harg2.read_unread, harg3.read_unread, harg4.read_unread, harg5.read_unread, harg9.read_unread]
    exact pay3_keep x0 x1 x2 x3 D
  isplitl [H8]
  · iexists _; isplitr; swap; · iexact H8
    ipureintro
    rw [read_store_whole _ _ hz2]
    simp only [View.readAt_eq_ld, harg2.read_unread, harg3.read_unread, harg4.read_unread, harg5.read_unread, harg9.read_unread]
    exact pay2_keep x0 x1 x2 x3 D
  iexists _; isplitr; · ipureintro; exact harg9.read_unread _
  iexact H9

end Cert.Kernel.Fr

end
-- ==== Proof.Kernel.Frame.lean ====
/-
  The frame of `Kernel`: the proof data of its one pipeline, the body obligation at every grid point, the launch and
  the frame claim.

  What is carried from point to point is the weights' scratch buffer. Before the first point it holds anything; after
  any point it holds the weights array's contents: a point with second grid coordinate 0 (points 0 and 4) has just
  copied them in, and every other point leaves the buffer as it found it. So the region's invariant before point 0 is
  the launch's own (scratch at some contents), and before every later point it names the scratch's contents; the
  body's own DMA semaphore is at zero and the weights array in HBM is whole and unchanged throughout. Each output
  block after point `t` is the body's payload of the blocks at `t` and of the two halves of those weights.
-/
import proofs.«422948_j83262236000379_3_alg».proof.Proof.Kernel.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the outputs hold after each point -/

/-- The weights as the scratch holds them from the first point on. -/
def wtsV (c : Dev nD) : Vec F S2048x4096 .bf16 := wts c (V m c main_v1)

/-- The new hidden block after point `t`. -/
def outH (c : Dev nD) (t : Fin cfg0.N) : Vec F S512x1024 .f32 :=
  k0_pay3 (iblk m c 0 t) (iblk m c 1 t) (wlo (wtsV m c)) (whi (wtsV m c)) (iblk m c 3 t) (iblk m c 2 t)
/-- The new cell block after point `t`. -/
def outC (c : Dev nD) (t : Fin cfg0.N) : Vec F S512x1024 .f32 :=
  k0_pay2 (iblk m c 0 t) (iblk m c 1 t) (wlo (wtsV m c)) (whi (wtsV m c)) (iblk m c 3 t) (iblk m c 2 t)

/-! ## The invariant and the proof data -/

/-- The invariant after the first point: the scratch at the weights, the generator register at some state, the own
    cell at zero, the weights array whole at its region-entry contents. -/
def PhiW (c : Dev nD) : sProp 𝕄 :=
  iprop(owns (c : Thread nD τ) scM fullShare (wtsV m c) ∗ (∃ r, prngReg c r) ∗ iprop(semVal ((c : Thread nD τ), SemLoc.dma 11) 0) ∗ iprop(hbPt c hbM (V m c main_v1)))

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outH m c t
    | ⟨5, _⟩ => outC m c t
  Φ t := if t.val = 0 then Pipeline.ΦD osem0 spec0 H0 (V m) c else PhiW m c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outH m c t := by dsimp only [dats]
theorem after0_5 (c : Dev nD) (t : Fin cfg0.N) : (dats m 0 c).after 5 t = outC m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Before point 0 the invariant is the launch's. -/
theorem Phi_zero (c : Dev nD) (t : Fin (cfg0.N + 1)) (h : t.val = 0) : (dats m 0 c).Φ t = Pipeline.ΦD osem0 spec0 H0 (V m) c := by
  dsimp only [dats]; rw [if_pos h]
/-- Before every later point, and after the last, it names the scratch's contents. -/
theorem Phi_pos (c : Dev nD) (t : Fin (cfg0.N + 1)) (h : t.val ≠ 0) : (dats m 0 c).Φ t = PhiW m c := by
  dsimp only [dats]; rw [if_neg h]

/-- Naming the scratch's contents is more than holding it at some contents. -/
theorem PhiW_weaken (c : Dev nD) : PhiW m c ⊢ (Pipeline.ΦD osem0 spec0 H0 (V m) c : sProp 𝕄) := by
  rw [PhiD0_eq]; unfold PhiW
  iintro ⟨HS, Hg, Hq, Hh⟩
  isplitl [HS]; · iexists _; iexact HS
  isplitl [Hg]; · iexact Hg
  isplitl [Hq]; · iexact Hq
  iexact Hh

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at a point that copies the weights in: whatever the scratch held (nothing named at point 0, the
    weights already at point 4), it ends at the weights. -/
theorem sound_body_A (c : Dev nD) (t : Fin cfg0.N) (hc : cond0 (grid0.coords t)) :
    iprop((Pipeline.ΦD osem0 spec0 H0 (V m) c : sProp 𝕄) ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d))
      ∗ (∃ d, owns (c : Thread nD τ) (ms0_5 t) fullShare ((dats m 0 c).before 5 t d)))
      ⊢ wp frame (wpE (defs₀ (F := F)) Variants.none c none) Set.univ (bodyAt0 t) (fun _ => bodyPost m c t) := by
  unfold bodyPost bodyAt0
  simp only [before0_0, before0_1, before0_2, before0_3]
  rw [Phi_pos m c t.succ (Nat.succ_ne_zero _), after0_0, after0_1, after0_2, after0_3, after0_4, after0_5, PhiD0_eq]
  unfold Dat.owesAt Pipeline.owesWithin PhiW
  rw [show (dats m 0 c).owed t.castSucc = 0 from rfl, show (dats m 0 c).owed t.succ = 0 from rfl]
  unfold outH outC wtsV
  iintro ⟨⟨HS, Hg, Hq, Hh⟩, ⟨%W, -, HW⟩, ⟨%d0, H0⟩, ⟨%d1, H1⟩, ⟨%d2, H2⟩, ⟨%d3, H3⟩, ⟨%d4, H4⟩, ⟨%d5, H5⟩⟩
  iapply (runA c (grid0.coords t) _ _ _ _ _ _ _ _ _ _ _ _ _ _ hc (iblk m c 0 t) (iblk m c 1 t) (iblk m c 2 t) (iblk m c 3 t) (V m c main_v1) W _)
  isplitl [H0]; · iexact H0
  isplitl [H1]; · iexact H1
  isplitl [H2]; · iexact H2
  isplitl [H3]; · iexact H3
  isplitl [H4]; · iexists _; iexact H4
  isplitl [H5]; · iexists _; iexact H5
  isplitl [HS]; · iexact HS
  isplitl [Hq]; · iexact Hq
  isplitl [Hh]; · iexact Hh
  isplitl [HW]; · iexact HW
  iintro ⟨H0, H1, H2, H3, H4, H5, HS, Hq, Hh, ⟨%W', HW'⟩⟩
  isplitl [HS Hg Hq Hh]
  · isplitl [HS]; · iexact HS
    isplitl [Hg]; · iexact Hg
    isplitl [Hq]; · iexact Hq
    iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

/-- The body at a point that does not: the scratch is at the weights and stays there. -/
theorem sound_body_B (c : Dev nD) (t : Fin cfg0.N) (hc : ¬cond0 (grid0.coords t)) :
    iprop(PhiW m c ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d))
      ∗ (∃ d, owns (c : Thread nD τ) (ms0_5 t) fullShare ((dats m 0 c).before 5 t d)))
      ⊢ wp frame (wpE (defs₀ (F := F)) Variants.none c none) Set.univ (bodyAt0 t) (fun _ => bodyPost m c t) := by
  unfold bodyPost bodyAt0
  simp only [before0_0, before0_1, before0_2, before0_3]
  rw [Phi_pos m c t.succ (Nat.succ_ne_zero _), after0_0, after0_1, after0_2, after0_3, after0_4, after0_5]
  unfold Dat.owesAt Pipeline.owesWithin PhiW
  rw [show (dats m 0 c).owed t.castSucc = 0 from rfl, show (dats m 0 c).owed t.succ = 0 from rfl]
  unfold outH outC
  iintro ⟨⟨HS, Hg, Hq, Hh⟩, ⟨%W, -, HW⟩, ⟨%d0, H0⟩, ⟨%d1, H1⟩, ⟨%d2, H2⟩, ⟨%d3, H3⟩, ⟨%d4, H4⟩, ⟨%d5, H5⟩⟩
  iapply (runB c (grid0.coords t) _ _ _ _ _ _ _ _ _ _ _ _ _ _ hc (iblk m c 0 t) (iblk m c 1 t) (iblk m c 2 t) (iblk m c 3 t) (wtsV m c) _)
  isplitl [H0]; · iexact H0
  isplitl [H1]; · iexact H1
  isplitl [H2]; · iexact H2
  isplitl [H3]; · iexact H3
  isplitl [H4]; · iexists _; iexact H4
  isplitl [H5]; · iexists _; iexact H5
  isplitl [HS]; · iexact HS
  iintro ⟨H0, H1, H2, H3, H4, H5, HS⟩
  isplitl [HS Hg Hq Hh]
  · isplitl [HS]; · iexact HS
    isplitl [Hg]; · iexact Hg
    isplitl [Hq]; · iexact Hq
    iexact Hh
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iexact H5

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre
  by_cases hc : cond0 (grid0.coords t)
  · by_cases h0 : t.val = 0
    · rw [Phi_zero m c t.castSucc h0]; exact sound_body_A m c t hc
    · rw [Phi_pos m c t.castSucc h0]
      iintro ⟨HP, HR⟩
      iapply (sound_body_A m c t hc)
      isplitl [HP]; · iapply (PhiW_weaken m c); iexact HP
      iexact HR
  · have h0 : t.val ≠ 0 := fun h => hc ((hcond0 t).mpr (by rw [h]))
    rw [Phi_pos m c t.castSucc h0]; exact sound_body_B m c t hc

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, each array of the pipeline ending at what the library computes
    from the proof data and every other unscoped buffer as the region found it. -/
theorem run_main : θ_run defs (onTc (τ := τ) (main (F := F))) (s₀ m ρ) (Pipeline.FramePost cfgs (dats m) 0 (V m)) :=
  Pipeline.θ_run_frame_dma cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun c => by rw [Phi_zero m c 0 rfl])
    (hout := fun c => by
      rw [Phi_pos m c (Fin.last cfg0.N) (by show cfg0.N ≠ 0; rw [show cfg0.N = grid0.N from rfl, N_0]; decide)]
      exact PhiW_weaken m c)

/-- The frame claim's post from the run's: a staged input array by the library's reading of an input window, an
    array no window stages by the post's second clause, each then as launched. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-- The frame: @main terminates, faults nowhere and leaves its eleven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Fr

end
-- ==== Proof.KernelIdeal.Base.lean ====
/-
  The launch side of `KernelIdeal`'s frame: what the region finds in each buffer after the four host operations before it
  (the two concatenations, the change of format, the reshape), each window's block at a grid point, that an input's
  staging buffer holds its block at every point, and the names the body's run is stated over — the staging memrefs,
  the weights' scratch buffer, the weights' array left in HBM that the body copies itself, and the one DMA semaphore
  of its own.
-/
import proofs.«422948_j83262236000379_3_alg».proof.Proof.Gen.KernelIdeal.Launch
import proofs.«422948_j83262236000379_3_alg».proof.Proof.Gen.KernelIdeal.Skeleton
import proofs.«422948_j83262236000379_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region -/

/-- Core `c`'s TensorCore buffers when the region is entered: after the four host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, its
    block index has not moved), for any proof data whose array is the region-entry contents and whose body leaves the
    block in place. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (unfetched, its
    block index has not moved), for any proof data whose array is the region-entry contents and whose body leaves the
    block in place. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (unfetched, its
    block index has not moved), for any proof data whose array is the region-entry contents and whose body leaves the
    block in place. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (unfetched, its
    block index has not moved), for any proof data whose array is the region-entry contents and whose body leaves the
    block in place. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The names the body's run is stated over -/

/-- Each window's current staging memref at point `t`, and that it is a whole buffer. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_4 (t : Fin cfg0.N) : Memref sig .tc .vmem S512x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .f32 := win0_5.stage (cfg0.slots t 5)
abbrev hs0_5 (t : Fin cfg0.N) : (ms0_5 t).IsWhole := hstage0_5 ((cfg0.slots t 5).cast nbuf0_5)
abbrev ms0_3 (t : Fin cfg0.N) : Memref sig .tc .vmem S1x4096 .f32 := win0_3.stage (cfg0.slots t 3)
abbrev hs0_3 (t : Fin cfg0.N) : (ms0_3 t).IsWhole := hstage0_3 ((cfg0.slots t 3).cast nbuf0_3)
/-- The weights' scratch buffer, whole. -/
abbrev scM : Memref sig .tc .vmem S2048x4096 .bf16 := Memref.whole cc0_scratch0
/-- The weights' array, left in HBM, whole. -/
abbrev hbM : Memref sig .tc .hbm S2048x4096 .bf16 := Memref.whole main_v1
/-- A memref's buffer on core `c`: its contents type, and it held whole at `f`. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The body's own DMA semaphore: cell 11 of the pool, no window's. -/
abbrev osem0 : Fin 1 → SemLoc sig := fun _ => SemLoc.dma 11
theorem ownSemFacts0 : Pipeline.OwnSemFacts spec0 osem0 := by decide
/-- The cell at zero. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 11) 0) := by
  rw [Pipeline.ownSems0_eq_of_list c osem0 [0] (by decide) (by decide)]; rfl
/-- The array the body moves itself: unscoped, no window's. -/
def H0 : Finset (Ref sig .tc) := {main_v1}
theorem H0_sub : H0 ⊆ Pipeline.restRefs sig spec0 := by decide
/-- Its points-to at the region-entry contents. -/
theorem hbmPts0_eq (c : Dev nD) :
    (bigSep H0 (fun b => ((c : Thread nD τ).loc b) ↦{fullShare} V m c b) : sProp 𝕄) = iprop(hbPt c hbM (V m c main_v1)) := by
  rw [BI.bigSep_eq_bigSepL_of_eq [main_v1] (by decide) (by decide)]; rfl

/-- The launch's invariant, conjunct by conjunct: the scratch buffer at some contents, the generator register at
    some state, the own cell at zero, the weights' array at its region-entry contents. -/
theorem PhiD0_eq (c : Dev nD) :
    (Pipeline.ΦD osem0 spec0 H0 (V m) c : sProp 𝕄)
      = iprop(iprop((∃ d, owns (c : Thread nD τ) scM fullShare d)) ∗ (∃ r, prngReg c r) ∗ iprop(semVal ((c : Thread nD τ), SemLoc.dma 11) 0) ∗ iprop(hbPt c hbM (V m c main_v1))) := by
  rw [Pipeline.ΦD_eq, scopedRest0_eq, ownSems00_eq, hbmPts0_eq]; simp only [scM, owns_whole]; try rfl

end Cert.KernelIdeal.Fr

end
-- ==== Proof.KernelIdeal.Runs.lean ====
/-
  The kernel body of `KernelIdeal` run once, on any whole staging memrefs, in its two control cases.

  At the first point of a core's share of the grid (second coordinate 0) the body copies the whole weights array from
  HBM into its scratch buffer on its own DMA semaphore and waits for the copy; at the other points it finds the scratch
  as the point before left it. In both cases it then loads the input, hidden and cell blocks, the bias row and the
  lower and upper halves of the scratch, and stores the new hidden block and the new cell block whole.
  So: given the scratch at ANY contents in the first case, or at contents `D` in the second, the body ends with the
  inputs as they were, the scratch at the weights array's contents (first case) or still at `D` (second), and the two
  output buffers at the payloads `k0_pay3` / `k0_pay2` of the loaded blocks and of the two halves of the scratch.
-/
import proofs.«422948_j83262236000379_3_alg».proof.Proof.KernelIdeal.Base
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What the loads read -/

theorem hz2 : (![0, 0] : Fin 2 → Nat) = fun _ => 0 := by
  funext a; match a with | ⟨0, _⟩ => rfl | ⟨1, _⟩ => rfl

/-- Rows 0..1023 of a [2048, 4096] array: what the body loads as the weights of the input. -/
def wlo (D : Vec F S2048x4096 .bf16) : Vec F S1024x4096 .bf16 :=
  View.ld D (Rect.unit (s := S2048x4096) ![0, 0] S1024x4096.size inb_S2048x4096_S1024x4096_0_0)
/-- Rows 1024..2047: the weights of the hidden state. -/
def whi (D : Vec F S2048x4096 .bf16) : Vec F S1024x4096 .bf16 :=
  View.ld D (Rect.unit (s := S2048x4096) ![1024, 0] S1024x4096.size inb_S2048x4096_S1024x4096_1024_0)

/-- What a copy of the whole weights array delivers: the array's contents, element for element. -/
def wts (c : Dev nD) (fh : HbBuf (F := F) c hbM) : Vec F S2048x4096 .bf16 :=
  ReadAs.same.apply (View.read (Elt F) (Memref.whole main_v1 : Memref sig .tc .hbm S2048x4096 .bf16).view fh)

/-- One whole-buffer piece is its payload. -/
theorem canon_whole (D : Vec F S2048x4096 .bf16) :
    View.canon [(⟨Rect.whole S2048x4096, D⟩ : View.Piece (Elt F) S2048x4096 .bf16)] = D :=
  View.canon_unit_zero (S := S2048x4096) (off := fun _ => 0) rfl (fun a => Nat.le_of_eq (Nat.zero_add _)) D

theorem cover_whole (D : Vec F S2048x4096 .bf16) (y : S2048x4096.Idx) :
    ∃ p ∈ [(⟨Rect.whole S2048x4096, D⟩ : View.Piece (Elt F) S2048x4096 .bf16)], y ∈ p.1.set :=
  ⟨_, List.mem_singleton_self _, by rw [Rect.set_whole]; exact Finset.mem_univ y⟩

/-- A load of the lower half after a whole-buffer write of `D` reads `D`'s lower half; likewise the upper. -/
theorem readCov_lo (v : View sig .tc .vmem S2048x4096 .bf16) (D : Vec F S2048x4096 .bf16) :
    v.readCov [(⟨Rect.whole S2048x4096, D⟩ : View.Piece (Elt F) S2048x4096 .bf16)]
      (Rect.unit (s := S2048x4096) ![0, 0] S1024x4096.size inb_S2048x4096_S1024x4096_0_0).toLoadRect = wlo D := by
  rw [View.readCov_eq_canon_ld _ _ _ (cover_whole D), canon_whole]; rfl
theorem readCov_hi (v : View sig .tc .vmem S2048x4096 .bf16) (D : Vec F S2048x4096 .bf16) :
    v.readCov [(⟨Rect.whole S2048x4096, D⟩ : View.Piece (Elt F) S2048x4096 .bf16)]
      (Rect.unit (s := S2048x4096) ![1024, 0] S1024x4096.size inb_S2048x4096_S1024x4096_1024_0).toLoadRect = whi D := by
  rw [View.readCov_eq_canon_ld _ _ _ (cover_whole D), canon_whole]; rfl

/-- A buffer written whole with one store through the zero-offset rectangle reads the stored value. -/
theorem read_store_whole {S : Shape} {e : EltTy} (v : View sig .tc .vmem S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h inb]

/-- The payloads of the loads as the run names them at a point that copies the weights in (loads through whole
    zero-offset rectangles of the input buffers, covered loads of the scratch after the copy) are the payloads of
    the buffers' contents and the two halves of what the copy delivered. -/
theorem pay3_copy (v : View sig .tc .vmem S2048x4096 .bf16) (x0 x1 x2 : Vec F S512x1024 .f32) (x3 : Vec F S1x4096 .f32) (D : Vec F S2048x4096 .bf16) :
    k0_pay3 (View.ld x0 (Rect.unit (s := S512x1024) ![0, 0] S512x1024.size inb_S512x1024_S512x1024_0_0))
        (View.ld x1 (Rect.unit (s := S512x1024) ![0, 0] S512x1024.size inb_S512x1024_S512x1024_0_0))
        (v.readCov [(⟨Rect.whole S2048x4096, D⟩ : View.Piece (Elt F) S2048x4096 .bf16)] (Rect.unit (s := S2048x4096) ![0, 0] S1024x4096.size inb_S2048x4096_S1024x4096_0_0).toLoadRect)
        (v.readCov [(⟨Rect.whole S2048x4096, D⟩ : View.Piece (Elt F) S2048x4096 .bf16)] (Rect.unit (s := S2048x4096) ![1024, 0] S1024x4096.size inb_S2048x4096_S1024x4096_1024_0).toLoadRect)
        (View.ld x3 (Rect.unit (s := S1x4096) ![0, 0] S1x4096.size inb_S1x4096_S1x4096_0_0))
        (View.ld x2 (Rect.unit (s := S512x1024) ![0, 0] S512x1024.size inb_S512x1024_S512x1024_0_0))
      = k0_pay3 x0 x1 (wlo D) (whi D) x3 x2 := by
  rw [readCov_lo, readCov_hi, View.ld_unit_zero (S := S512x1024) hz2, View.ld_unit_zero (S := S512x1024) hz2,
    View.ld_unit_zero (S := S512x1024) hz2, View.ld_unit_zero (S := S1x4096) hz2]
theorem pay2_copy (v : View sig .tc .vmem S2048x4096 .bf16) (x0 x1 x2 : Vec F S512x1024 .f32) (x3 : Vec F S1x4096 .f32) (D : Vec F S2048x4096 .bf16) :
    k0_pay2 (View.ld x0 (Rect.unit (s := S512x1024) ![0, 0] S512x1024.size inb_S512x1024_S512x1024_0_0))
        (View.ld x1 (Rect.unit (s := S512x1024) ![0, 0] S512x1024.size inb_S512x1024_S512x1024_0_0))
        (v.readCov [(⟨Rect.whole S2048x4096, D⟩ : View.Piece (Elt F) S2048x4096 .bf16)] (Rect.unit (s := S2048x4096) ![0, 0] S1024x4096.size inb_S2048x4096_S1024x4096_0_0).toLoadRect)
        (v.readCov [(⟨Rect.whole S2048x4096, D⟩ : View.Piece (Elt F) S2048x4096 .bf16)] (Rect.unit (s := S2048x4096) ![1024, 0] S1024x4096.size inb_S2048x4096_S1024x4096_1024_0).toLoadRect)
        (View.ld x3 (Rect.unit (s := S1x4096) ![0, 0] S1x4096.size inb_S1x4096_S1x4096_0_0))
        (View.ld x2 (Rect.unit (s := S512x1024) ![0, 0] S512x1024.size inb_S512x1024_S512x1024_0_0))
      = k0_pay2 x0 x1 (wlo D) (whi D) x3 x2 := by
  rw [readCov_lo, readCov_hi, View.ld_unit_zero (S := S512x1024) hz2, View.ld_unit_zero (S := S512x1024) hz2,
    View.ld_unit_zero (S := S512x1024) hz2, View.ld_unit_zero (S := S1x4096) hz2]
/-- The same at a point that does not: plain loads of the scratch at contents `D`. -/
theorem pay3_keep (x0 x1 x2 : Vec F S512x1024 .f32) (x3 : Vec F S1x4096 .f32) (D : Vec F S2048x4096 .bf16) :
    k0_pay3 (View.ld x0 (Rect.unit (s := S512x1024) ![0, 0] S512x1024.size inb_S512x1024_S512x1024_0_0))
        (View.ld x1 (Rect.unit (s := S512x1024) ![0, 0] S512x1024.size inb_S512x1024_S512x1024_0_0))
        (View.ld D (Rect.unit (s := S2048x4096) ![0, 0] S1024x4096.size inb_S2048x4096_S1024x4096_0_0))
        (View.ld D (Rect.unit (s := S2048x4096) ![1024, 0] S1024x4096.size inb_S2048x4096_S1024x4096_1024_0))
        (View.ld x3 (Rect.unit (s := S1x4096) ![0, 0] S1x4096.size inb_S1x4096_S1x4096_0_0))
        (View.ld x2 (Rect.unit (s := S512x1024) ![0, 0] S512x1024.size inb_S512x1024_S512x1024_0_0))
      = k0_pay3 x0 x1 (wlo D) (whi D) x3 x2 := by
  rw [View.ld_unit_zero (S := S512x1024) hz2, View.ld_unit_zero (S := S512x1024) hz2,
    View.ld_unit_zero (S := S512x1024) hz2, View.ld_unit_zero (S := S1x4096) hz2]; rfl
theorem pay2_keep (x0 x1 x2 : Vec F S512x1024 .f32) (x3 : Vec F S1x4096 .f32) (D : Vec F S2048x4096 .bf16) :
    k0_pay2 (View.ld x0 (Rect.unit (s := S512x1024) ![0, 0] S512x1024.size inb_S512x1024_S512x1024_0_0))
        (View.ld x1 (Rect.unit (s := S512x1024) ![0, 0] S512x1024.size inb_S512x1024_S512x1024_0_0))
        (View.ld D (Rect.unit (s := S2048x4096) ![0, 0] S1024x4096.size inb_S2048x4096_S1024x4096_0_0))
        (View.ld D (Rect.unit (s := S2048x4096) ![1024, 0] S1024x4096.size inb_S2048x4096_S1024x4096_1024_0))
        (View.ld x3 (Rect.unit (s := S1x4096) ![0, 0] S1x4096.size inb_S1x4096_S1x4096_0_0))
        (View.ld x2 (Rect.unit (s := S512x1024) ![0, 0] S512x1024.size inb_S512x1024_S512x1024_0_0))
      = k0_pay2 x0 x1 (wlo D) (whi D) x3 x2 := by
  rw [View.ld_unit_zero (S := S512x1024) hz2, View.ld_unit_zero (S := S512x1024) hz2,
    View.ld_unit_zero (S := S512x1024) hz2, View.ld_unit_zero (S := S1x4096) hz2]; rfl

/-! ## The branch condition -/

/-- The body's one branch: the second grid coordinate is 0. -/
abbrev cond0 (i : grid0.Coords) : Prop := (Scalar.cmpi .ne (Scalar.extui (Scalar.cmpi .eq (BitVec.ofNat 32 (i 1).val) 0#32)) 0#32) = 1#1
/-- It holds at points 0 and 4 of the eight. -/
theorem hcond0 : ∀ t : Fin cfg0.N, cond0 (grid0.coords t) ↔ t.val % 4 = 0 :=
  (by decide +kernel : ∀ t : Fin grid0.N, cond0 (grid0.coords t) ↔ t.val % 4 = 0)

/-! ## The two runs -/

set_option maxHeartbeats 1000000 in
/-- The first point of a core's share: the copy, its wait, the loads and the two stores. -/
theorem runA (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x4096 .f32) (harg5 : arg5.IsWhole) (arg7 : Memref sig .tc .vmem S512x1024 .f32) (harg7 : arg7.IsWhole) (arg8 : Memref sig .tc .vmem S512x1024 .f32) (harg8 : arg8.IsWhole) (arg9 : Memref sig .tc .vmem S2048x4096 .bf16) (harg9 : arg9.IsWhole) (hc : cond0 i)
    (x0 x1 x2 : Vec F S512x1024 .f32) (x3 : Vec F S1x4096 .f32) (fh : HbBuf (F := F) c hbM) (W : Waits sig Unit) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg7 fullShare d) ∗ (∃ d, owns (c : Thread nD τ) arg8 fullShare d) ∗ (∃ d, owns (c : Thread nD τ) arg9 fullShare d)
        ∗ semVal ((c : Thread nD τ), SemLoc.dma 11) 0 ∗ hbPt c hbM fh ∗ owes (c : Thread nD τ) 0 W
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg7 fullShare (k0_pay3 x0 x1 (wlo (wts c fh)) (whi (wts c fh)) x3 x2) ∗ owns (c : Thread nD τ) arg8 fullShare (k0_pay2 x0 x1 (wlo (wts c fh)) (whi (wts c fh)) x3 x2)
            ∗ owns (c : Thread nD τ) arg9 fullShare (wts c fh)
            ∗ semVal ((c : Thread nD τ), SemLoc.dma 11) 0 ∗ hbPt c hbM fh ∗ (∃ W', owes (c : Thread nD τ) 0 W')) -∗ K ⟨⟩))
      ⊢ wp frame (wpE (defs₀ (F := F)) Variants.none c none) Set.univ (cc0__lstm_kernel i arg2 harg2 arg3 harg3 arg4 harg4 arg5 harg5 (Memref.whole main_v1) (Memref.isWhole_whole _) arg7 harg7 arg8 harg8 arg9 harg9 cc0_scratch1) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%d7, %f7, -, H7⟩, ⟨%d8, %f8, -, H8⟩, ⟨%d9, %f9, -, H9⟩, Hq, Hh, HW, Hk⟩
  obtain rfl := harg2.eq_unread hf0; obtain rfl := harg3.eq_unread hf1; obtain rfl := harg4.eq_unread hf2; obtain rfl := harg5.eq_unread hf3
  sl_exec (disch := first | exact hc)
  sl_step
  sl_unfold_run_names
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H7]
  · iexists _; isplitr; swap; · iexact H7
    ipureintro
    rw [read_store_whole _ _ hz2]
    simp only [View.readAt_eq_ld, harg2.read_unread, harg3.read_unread, harg4.read_unread, harg5.read_unread]
    exact pay3_copy arg9.view x0 x1 x2 x3 (wts c fh)
  isplitl [H8]
  · iexists _; isplitr; swap; · iexact H8
    ipureintro
    rw [read_store_whole _ _ hz2]
    simp only [View.readAt_eq_ld, harg2.read_unread, harg3.read_unread, harg4.read_unread, harg5.read_unread]
    exact pay2_copy arg9.view x0 x1 x2 x3 (wts c fh)
  isplitl [H9]
  · iexists _; isplitr; swap; · iexact H9
    ipureintro; exact View.read_writes_whole _ _ _
  isplitl [Hq]; · iexact Hq
  isplitl [Hh]; · iexact Hh
  iexists _; iexact HW

set_option maxHeartbeats 1000000 in
/-- Every other point: no copy; the scratch is read as it was found and left so. -/
theorem runB (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S1x4096 .f32) (harg5 : arg5.IsWhole) (arg7 : Memref sig .tc .vmem S512x1024 .f32) (harg7 : arg7.IsWhole) (arg8 : Memref sig .tc .vmem S512x1024 .f32) (harg8 : arg8.IsWhole) (arg9 : Memref sig .tc .vmem S2048x4096 .bf16) (harg9 : arg9.IsWhole) (hc : ¬cond0 i)
    (x0 x1 x2 : Vec F S512x1024 .f32) (x3 : Vec F S1x4096 .f32) (D : Vec F S2048x4096 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg7 fullShare d) ∗ (∃ d, owns (c : Thread nD τ) arg8 fullShare d) ∗ owns (c : Thread nD τ) arg9 fullShare D
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg7 fullShare (k0_pay3 x0 x1 (wlo D) (whi D) x3 x2) ∗ owns (c : Thread nD τ) arg8 fullShare (k0_pay2 x0 x1 (wlo D) (whi D) x3 x2)
            ∗ owns (c : Thread nD τ) arg9 fullShare D) -∗ K ⟨⟩))
      ⊢ wp frame (wpE (defs₀ (F := F)) Variants.none c none) Set.univ (cc0__lstm_kernel i arg2 harg2 arg3 harg3 arg4 harg4 arg5 harg5 (Memref.whole main_v1) (Memref.isWhole_whole _) arg7 harg7 arg8 harg8 arg9 harg9 cc0_scratch1) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%d7, %f7, -, H7⟩, ⟨%d8, %f8, -, H8⟩, ⟨%f9, %hf9, H9⟩, Hk⟩
  obtain rfl := harg2.eq_unread hf0; obtain rfl := harg3.eq_unread hf1; obtain rfl := harg4.eq_unread hf2; obtain rfl := harg5.eq_unread hf3
  obtain rfl := harg9.eq_unread hf9
  sl_exec (disch := first | exact hc)
  sl_step
  sl_unfold_run_names
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H7]
  · iexists _; isplitr; swap; · iexact H7
    ipureintro
    rw [read_store_whole _ _ hz2]
    simp only [View.readAt_eq_ld, harg2.read_unread, harg3.read_unread, harg4.read_unread, harg5.read_unread, harg9.read_unread]
    exact pay3_keep x0 x1 x2 x3 D
  isplitl [H8]
  · iexists _; isplitr; swap; · iexact H8
    ipureintro
    rw [read_store_whole _ _ hz2]
    simp only [View.readAt_eq_ld, harg2.read_unread, harg3.read_unread, harg4.read_unread, harg5.read_unread, harg9.read_unread]
    exact pay2_keep x0 x1 x2 x3 D
  iexists _; isplitr; · ipureintro; exact harg9.read_unread _
  iexact H9

end Cert.KernelIdeal.Fr

end
-- ==== Proof.KernelIdeal.Frame.lean ====
/-
  The frame of `KernelIdeal`: the proof data of its one pipeline, the body obligation at every grid point, the launch and
  the frame claim.

  What is carried from point to point is the weights' scratch buffer. Before the first point it holds anything; after
  any point it holds the weights array's contents: a point with second grid coordinate 0 (points 0 and 4) has just
  copied them in, and every other point leaves the buffer as it found it. So the region's invariant before point 0 is
  the launch's own (scratch at some contents), and before every later point it names the scratch's contents; the
  body's own DMA semaphore is at zero and the weights array in HBM is whole and unchanged throughout. Each output
  block after point `t` is the body's payload of the blocks at `t` and of the two halves of those weights.
-/
import proofs.«422948_j83262236000379_3_alg».proof.Proof.KernelIdeal.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the outputs hold after each point -/

/-- The weights as the scratch holds them from the first point on. -/
def wtsV (c : Dev nD) : Vec F S2048x4096 .bf16 := wts c (V m c main_v1)

/-- The new hidden block after point `t`. -/
def outH (c : Dev nD) (t : Fin cfg0.N) : Vec F S512x1024 .f32 :=
  k0_pay3 (iblk m c 0 t) (iblk m c 1 t) (wlo (wtsV m c)) (whi (wtsV m c)) (iblk m c 3 t) (iblk m c 2 t)
/-- The new cell block after point `t`. -/
def outC (c : Dev nD) (t : Fin cfg0.N) : Vec F S512x1024 .f32 :=
  k0_pay2 (iblk m c 0 t) (iblk m c 1 t) (wlo (wtsV m c)) (whi (wtsV m c)) (iblk m c 3 t) (iblk m c 2 t)

/-! ## The invariant and the proof data -/

/-- The invariant after the first point: the scratch at the weights, the generator register at some state, the own
    cell at zero, the weights array whole at its region-entry contents. -/
def PhiW (c : Dev nD) : sProp 𝕄 :=
  iprop(owns (c : Thread nD τ) scM fullShare (wtsV m c) ∗ (∃ r, prngReg c r) ∗ iprop(semVal ((c : Thread nD τ), SemLoc.dma 11) 0) ∗ iprop(hbPt c hbM (V m c main_v1)))

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outH m c t
    | ⟨5, _⟩ => outC m c t
  Φ t := if t.val = 0 then Pipeline.ΦD osem0 spec0 H0 (V m) c else PhiW m c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outH m c t := by dsimp only [dats]
theorem after0_5 (c : Dev nD) (t : Fin cfg0.N) : (dats m 0 c).after 5 t = outC m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Before point 0 the invariant is the launch's. -/
theorem Phi_zero (c : Dev nD) (t : Fin (cfg0.N + 1)) (h : t.val = 0) : (dats m 0 c).Φ t = Pipeline.ΦD osem0 spec0 H0 (V m) c := by
  dsimp only [dats]; rw [if_pos h]
/-- Before every later point, and after the last, it names the scratch's contents. -/
theorem Phi_pos (c : Dev nD) (t : Fin (cfg0.N + 1)) (h : t.val ≠ 0) : (dats m 0 c).Φ t = PhiW m c := by
  dsimp only [dats]; rw [if_neg h]

/-- Naming the scratch's contents is more than holding it at some contents. -/
theorem PhiW_weaken (c : Dev nD) : PhiW m c ⊢ (Pipeline.ΦD osem0 spec0 H0 (V m) c : sProp 𝕄) := by
  rw [PhiD0_eq]; unfold PhiW
  iintro ⟨HS, Hg, Hq, Hh⟩
  isplitl [HS]; · iexists _; iexact HS
  isplitl [Hg]; · iexact Hg
  isplitl [Hq]; · iexact Hq
  iexact Hh

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at a point that copies the weights in: whatever the scratch held (nothing named at point 0, the
    weights already at point 4), it ends at the weights. -/
theorem sound_body_A (c : Dev nD) (t : Fin cfg0.N) (hc : cond0 (grid0.coords t)) :
    iprop((Pipeline.ΦD osem0 spec0 H0 (V m) c : sProp 𝕄) ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d))
      ∗ (∃ d, owns (c : Thread nD τ) (ms0_5 t) fullShare ((dats m 0 c).before 5 t d)))
      ⊢ wp frame (wpE (defs₀ (F := F)) Variants.none c none) Set.univ (bodyAt0 t) (fun _ => bodyPost m c t) := by
  unfold bodyPost bodyAt0
  simp only [before0_0, before0_1, before0_2, before0_3]
  rw [Phi_pos m c t.succ (Nat.succ_ne_zero _), after0_0, after0_1, after0_2, after0_3, after0_4, after0_5, PhiD0_eq]
  unfold Dat.owesAt Pipeline.owesWithin PhiW
  rw [show (dats m 0 c).owed t.castSucc = 0 from rfl, show (dats m 0 c).owed t.succ = 0 from rfl]
  unfold outH outC wtsV
  iintro ⟨⟨HS, Hg, Hq, Hh⟩, ⟨%W, -, HW⟩, ⟨%d0, H0⟩, ⟨%d1, H1⟩, ⟨%d2, H2⟩, ⟨%d3, H3⟩, ⟨%d4, H4⟩, ⟨%d5, H5⟩⟩
  iapply (runA c (grid0.coords t) _ _ _ _ _ _ _ _ _ _ _ _ _ _ hc (iblk m c 0 t) (iblk m c 1 t) (iblk m c 2 t) (iblk m c 3 t) (V m c main_v1) W _)
  isplitl [H0]; · iexact H0
  isplitl [H1]; · iexact H1
  isplitl [H2]; · iexact H2
  isplitl [H3]; · iexact H3
  isplitl [H4]; · iexists _; iexact H4
  isplitl [H5]; · iexists _; iexact H5
  isplitl [HS]; · iexact HS
  isplitl [Hq]; · iexact Hq
  isplitl [Hh]; · iexact Hh
  isplitl [HW]; · iexact HW
  iintro ⟨H0, H1, H2, H3, H4, H5, HS, Hq, Hh, ⟨%W', HW'⟩⟩
  isplitl [HS Hg Hq Hh]
  · isplitl [HS]; · iexact HS
    isplitl [Hg]; · iexact Hg
    isplitl [Hq]; · iexact Hq
    iexact Hh
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

/-- The body at a point that does not: the scratch is at the weights and stays there. -/
theorem sound_body_B (c : Dev nD) (t : Fin cfg0.N) (hc : ¬cond0 (grid0.coords t)) :
    iprop(PhiW m c ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d))
      ∗ (∃ d, owns (c : Thread nD τ) (ms0_5 t) fullShare ((dats m 0 c).before 5 t d)))
      ⊢ wp frame (wpE (defs₀ (F := F)) Variants.none c none) Set.univ (bodyAt0 t) (fun _ => bodyPost m c t) := by
  unfold bodyPost bodyAt0
  simp only [before0_0, before0_1, before0_2, before0_3]
  rw [Phi_pos m c t.succ (Nat.succ_ne_zero _), after0_0, after0_1, after0_2, after0_3, after0_4, after0_5]
  unfold Dat.owesAt Pipeline.owesWithin PhiW
  rw [show (dats m 0 c).owed t.castSucc = 0 from rfl, show (dats m 0 c).owed t.succ = 0 from rfl]
  unfold outH outC
  iintro ⟨⟨HS, Hg, Hq, Hh⟩, ⟨%W, -, HW⟩, ⟨%d0, H0⟩, ⟨%d1, H1⟩, ⟨%d2, H2⟩, ⟨%d3, H3⟩, ⟨%d4, H4⟩, ⟨%d5, H5⟩⟩
  iapply (runB c (grid0.coords t) _ _ _ _ _ _ _ _ _ _ _ _ _ _ hc (iblk m c 0 t) (iblk m c 1 t) (iblk m c 2 t) (iblk m c 3 t) (wtsV m c) _)
  isplitl [H0]; · iexact H0
  isplitl [H1]; · iexact H1
  isplitl [H2]; · iexact H2
  isplitl [H3]; · iexact H3
  isplitl [H4]; · iexists _; iexact H4
  isplitl [H5]; · iexists _; iexact H5
  isplitl [HS]; · iexact HS
  iintro ⟨H0, H1, H2, H3, H4, H5, HS⟩
  isplitl [HS Hg Hq Hh]
  · isplitl [HS]; · iexact HS
    isplitl [Hg]; · iexact Hg
    isplitl [Hq]; · iexact Hq
    iexact Hh
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iexact H5

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre
  by_cases hc : cond0 (grid0.coords t)
  · by_cases h0 : t.val = 0
    · rw [Phi_zero m c t.castSucc h0]; exact sound_body_A m c t hc
    · rw [Phi_pos m c t.castSucc h0]
      iintro ⟨HP, HR⟩
      iapply (sound_body_A m c t hc)
      isplitl [HP]; · iapply (PhiW_weaken m c); iexact HP
      iexact HR
  · have h0 : t.val ≠ 0 := fun h => hc ((hcond0 t).mpr (by rw [h]))
    rw [Phi_pos m c t.castSucc h0]; exact sound_body_B m c t hc

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, each array of the pipeline ending at what the library computes
    from the proof data and every other unscoped buffer as the region found it. -/
theorem run_main : θ_run defs (onTc (τ := τ) (main (F := F))) (s₀ m ρ) (Pipeline.FramePost cfgs (dats m) 0 (V m)) :=
  Pipeline.θ_run_frame_dma cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun c => by rw [Phi_zero m c 0 rfl])
    (hout := fun c => by
      rw [Phi_pos m c (Fin.last cfg0.N) (by show cfg0.N ≠ 0; rw [show cfg0.N = grid0.N from rfl, N_0]; decide)]
      exact PhiW_weaken m c)

/-- The frame claim's post from the run's: a staged input array by the library's reading of an input window, an
    array no window stages by the post's second clause, each then as launched. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-- The frame: @main terminates, faults nowhere and leaves its eleven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Fr

end
-- ==== Proof.CellSpec.lean ====
/-
  The LSTM cell both programs compute, as ONE function of the argument arrays over the extended reals.

  With `x`, `h`, `c` the [4096, 1024] input, hidden and cell arrays, `W` the [2048, 4096] matrix of the four gates'
  weights side by side (forget, input, candidate, output: 1024 columns each; rows 0..1023 multiply `x`, rows
  1024..2047 multiply `h`) and `b` the [4096] bias laid out the same way, the pre-activation of column `q` at row `r` is

      pre r q = (∑ k < 1024, x r k · W k q  +  ∑ k < 1024, h r k · W (1024 + k) q) + b q,

  and for j < 1024
      c' r j = σ(pre r j) · c r j + σ(pre r (1024 + j)) · tanh(pre r (2048 + j)),
      h' r j = σ(pre r (3072 + j)) · tanh(c' r j),
  with σ x = 1 / (1 + e^(−x)) and tanh the extended reals' (PureOps/Ideal.lean). The contraction over the 2048 rows of
  `W` is written as the two half sums: a sum over 2048 terms is the sum of its halves in any commutative monoid, so no
  finiteness of the inputs is involved.
-/
import Idealize.ShloMosaic.Lib.ValueIdx
import Idealize.ShloMosaic.PureOps.Ideal

noncomputable section

open scoped BigOperators

namespace Cert.Cell

open Idealize.ShloMosaic Idealize.ShloMosaic.ValueIdx

/-- An activation array: [4096, 1024]. -/
abbrev Act : Type := (⟨2, ![4096, 1024]⟩ : Shape).Idx → EReal
/-- The four gates' weights side by side: [2048, 4096]. -/
abbrev WAll : Type := (⟨2, ![2048, 4096]⟩ : Shape).Idx → EReal
/-- The four gates' biases end to end: [4096]. -/
abbrev BAll : Type := (⟨1, ![4096]⟩ : Shape).Idx → EReal

/-- Row `k` of the half of `W` that multiplies the input. -/
def lo (k : Fin 1024) : Fin 2048 := ⟨k.val, by omega⟩
/-- Row `1024 + k`, of the half that multiplies the hidden state. -/
def hi (k : Fin 1024) : Fin 2048 := ⟨1024 + k.val, by omega⟩
/-- Column `j` of gate `n` (0 forget, 1 input, 2 candidate, 3 output). -/
def col (n : Fin 4) (j : Fin 1024) : Fin 4096 := ⟨n.val * 1024 + j.val, by omega⟩

/-- The pre-activation of column `q` at row `r`. -/
def pre (x h : Act) (W : WAll) (b : BAll) (r : Fin 4096) (q : Fin 4096) : EReal :=
  (∑ k : Fin 1024, x (ix2 r k) * W (ix2 (lo k) q) + ∑ k : Fin 1024, h (ix2 r k) * W (ix2 (hi k) q)) + b (ix1 q)

/-- The new cell state at (r, j). -/
def cNewAt (x h c : Act) (W : WAll) (b : BAll) (r : Fin 4096) (j : Fin 1024) : EReal :=
  Ideal.logistic (pre x h W b r (col 0 j)) * c (ix2 r j)
    + Ideal.logistic (pre x h W b r (col 1 j)) * Ideal.tanh (pre x h W b r (col 2 j))

/-- The new hidden state at (r, j). -/
def hNewAt (x h c : Act) (W : WAll) (b : BAll) (r : Fin 4096) (j : Fin 1024) : EReal :=
  Ideal.logistic (pre x h W b r (col 3 j)) * Ideal.tanh (cNewAt x h c W b r j)

/-- The new cell state, as an array. -/
def cNew (x h c : Act) (W : WAll) (b : BAll) : Act := fun y => cNewAt x h c W b (y 0) (y 1)
/-- The new hidden state, as an array. -/
def hNew (x h c : Act) (W : WAll) (b : BAll) : Act := fun y => hNewAt x h c W b (y 0) (y 1)

theorem cNew_apply (x h c : Act) (W : WAll) (b : BAll) (r : Fin 4096) (j : Fin 1024) :
    cNew x h c W b (ix2 r j) = cNewAt x h c W b r j := rfl
theorem hNew_apply (x h c : Act) (W : WAll) (b : BAll) (r : Fin 4096) (j : Fin 1024) :
    hNew x h c W b (ix2 r j) = hNewAt x h c W b r j := rfl

end Cert.Cell

end
-- ==== Proof.KernelIdeal.Blocks.lean ====
/-
  Each window's block at a grid point, read at an element, and what the host operations before the region leave in
  the two arrays the body reads that are no argument of the program.

  The grid is 2 × 4 = 8 points and every input window's index map sends point t to block (t, 0): block t of the
  input, hidden and cell arrays is rows 512·t … 512·t + 511, all 1024 columns. The bias window's one block is the whole
  [1, 4096] array. Before the region the host lays the four weight matrices side by side ([2048, 4096]) and changes the
  format to bf16, which is the identity on the extended reals; and lays the four biases end to end ([4096]) and
  reshapes them to [1, 4096], whose element (0, q) is element q.
-/
import proofs.«422948_j83262236000379_3_alg».proof.Proof.KernelIdeal.Base
import proofs.«422948_j83262236000379_3_alg».proof.Proof.CellSpec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-! ## The blocks -/

/-- Row `p` of block `t` is row `512·t + p` of the array. -/
def rowOf (t : Fin cfg0.N) (p : Fin 512) : Fin 4096 :=
  ⟨512 * t.val + p.val, by have h : t.val < 8 := lt_of_lt_of_eq t.isLt N_0; have hp := p.isLt; omega⟩

/-- The input, hidden, cell and bias windows' blocks at point `t`, at their literal types. -/
abbrev xblk (c : Dev nD) (t : Fin cfg0.N) : Vec Ideal S512x1024 .f32 := iblk m c 0 t
abbrev hblk (c : Dev nD) (t : Fin cfg0.N) : Vec Ideal S512x1024 .f32 := iblk m c 1 t
abbrev cblk (c : Dev nD) (t : Fin cfg0.N) : Vec Ideal S512x1024 .f32 := iblk m c 2 t
abbrev bblk (c : Dev nD) (t : Fin cfg0.N) : Vec Ideal S1x4096 .f32 := iblk m c 3 t

/-- The four weight matrices side by side, as the program's @main concatenates them. -/
def wAllK (c : Dev nD) : Cert.Cell.WAll :=
  concatenate S2048x4096 1 [⟨S2048x1024, m ((c : Thread nD τ).loc main_arg4)⟩, ⟨S2048x1024, m ((c : Thread nD τ).loc main_arg3)⟩,
    ⟨S2048x1024, m ((c : Thread nD τ).loc main_arg5)⟩, ⟨S2048x1024, m ((c : Thread nD τ).loc main_arg6)⟩]
    concatenates_S2048x1024_S2048x1024_S2048x1024_S2048x1024_S2048x4096_d1
/-- The four biases end to end, as the program's @main concatenates them. -/
def bAllK (c : Dev nD) : Cert.Cell.BAll :=
  concatenate S4096 0 [⟨S1024, m ((c : Thread nD τ).loc main_arg8)⟩, ⟨S1024, m ((c : Thread nD τ).loc main_arg7)⟩,
    ⟨S1024, m ((c : Thread nD τ).loc main_arg9)⟩, ⟨S1024, m ((c : Thread nD τ).loc main_arg10)⟩]
    concatenates_S1024_S1024_S1024_S1024_S4096_d0

/-- The index maps over the grid: the three activation windows are at block (t, 0) at point t, the bias window at
    block (0, 0) throughout. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

/-- The input's block `t` at (p, k) is the input at (512·t + p, k). -/
theorem xblk_apply (c : Dev nD) (t : Fin cfg0.N) (p : Fin 512) (k : Fin 1024) :
    xblk m c t (ix2 p k) = m ((c : Thread nD τ).loc main_arg0) (ix2 (rowOf t p) k) := by
  obtain ⟨e0, e1, -⟩ := idx_facts t
  show V m c main_arg0 (((cfg0.win 0).blk t).view.emb (ix2 p k)) = _
  rw [V_main_arg0]
  congr 1
  funext a
  apply Fin.ext
  match a with
  | ⟨0, _⟩ => show win0_0.index t (0 : Fin 2) * 512 + 1 * p.val = 512 * t.val + p.val; omega
  | ⟨1, _⟩ => show win0_0.index t (1 : Fin 2) * 1024 + 1 * k.val = k.val; omega

/-- The hidden state's block `t` at (p, k) is the hidden state at (512·t + p, k). -/
theorem hblk_apply (c : Dev nD) (t : Fin cfg0.N) (p : Fin 512) (k : Fin 1024) :
    hblk m c t (ix2 p k) = m ((c : Thread nD τ).loc main_arg1) (ix2 (rowOf t p) k) := by
  obtain ⟨-, -, e0, e1, -⟩ := idx_facts t
  show V m c main_arg1 (((cfg0.win 1).blk t).view.emb (ix2 p k)) = _
  rw [V_main_arg1]
  congr 1
  funext a
  apply Fin.ext
  match a with
  | ⟨0, _⟩ => show win0_1.index t (0 : Fin 2) * 512 + 1 * p.val = 512 * t.val + p.val; omega
  | ⟨1, _⟩ => show win0_1.index t (1 : Fin 2) * 1024 + 1 * k.val = k.val; omega

/-- The cell state's block `t` at (p, k) is the cell state at (512·t + p, k). -/
theorem cblk_apply (c : Dev nD) (t : Fin cfg0.N) (p : Fin 512) (k : Fin 1024) :
    cblk m c t (ix2 p k) = m ((c : Thread nD τ).loc main_arg2) (ix2 (rowOf t p) k) := by
  obtain ⟨-, -, -, -, e0, e1, -⟩ := idx_facts t
  show V m c main_arg2 (((cfg0.win 2).blk t).view.emb (ix2 p k)) = _
  rw [V_main_arg2]
  congr 1
  funext a
  apply Fin.ext
  match a with
  | ⟨0, _⟩ => show win0_2.index t (0 : Fin 2) * 512 + 1 * p.val = 512 * t.val + p.val; omega
  | ⟨1, _⟩ => show win0_2.index t (1 : Fin 2) * 1024 + 1 * k.val = k.val; omega

/-! ## What the host operations leave -/

/-- The weights' array as the region finds it: the four matrices side by side (the change of format to bf16 is the
    identity on the extended reals). -/
theorem wts_apply (c : Dev nD) (y : S2048x4096.Idx) : (V m c main_v1 : S2048x4096.Idx → EReal) y = wAllK m c y := by
  have e : (V m c main_v1 : S2048x4096.Idx → EReal)
      = truncf (F := Ideal) .bf16 (wAllK m c : FVec Ideal S2048x4096 .f32) bitsLt_bf16_f32 := by
    dsimp only [V, hostOps0]; after_results; rfl
  rw [e]
  rfl

/-- The bias array as the region finds it: the four biases end to end, reshaped to one row. -/
theorem bias_eq (c : Dev nD) : (V m c main_v3 : S1x4096.Idx → EReal) = shapeCast S1x4096 (bAllK m c) shapeCasts_S4096_S1x4096 := by
  dsimp only [V, hostOps0]; after_results; rfl

/-- The bias window's one block at (0, q) is bias q. -/
theorem bblk_apply (c : Dev nD) (t : Fin cfg0.N) (q : Fin 4096) : bblk m c t (ix2 (0 : Fin 1) q) = bAllK m c (ix1 q) := by
  obtain ⟨-, -, -, -, -, -, e0, e1⟩ := idx_facts t
  show (V m c main_v3 : S1x4096.Idx → EReal) (((cfg0.win 3).blk t).view.emb (ix2 (0 : Fin 1) q)) = _
  rw [bias_eq]
  refine shapeCast_apply (bAllK m c) shapeCasts_S4096_S1x4096 _ (ix1 q) ?_
  rw [Shape.rowMajor_val_one, Shape.rowMajor_val_two]
  show q.val = (win0_3.index t (0 : Fin 2) * 1 + 1 * (0 : Fin 1).val) * 4096 + (win0_3.index t (1 : Fin 2) * 4096 + 1 * q.val)
  rw [e0, e1]
  simp

end Cert.KernelIdeal.Fr

end
-- ==== Proof.PayCell.lean ====
/-
  The kernel body's arithmetic, read at one element of a block. With `xb`, `hb`, `cb` the [512, 1024] blocks of the input,
  hidden and cell arrays at a grid point, `wl` and `wh` the lower and upper [1024, 4096] halves of the weights the body loads
  from its scratch buffer, and `bb` the [1, 4096] bias row: the [512, 4096] pre-activation is the two matrix products
  (each into a zero accumulator, so a plain sum over the 1024 contracted rows) plus the bias row broadcast down the
  rows; the four gates are its four 1024-column slices; and the stored values are the cell update and the hidden state.
  The changes of float format (f32 to bf16) are the identity on the extended reals.
-/
import proofs.«422948_j83262236000379_3_alg».proof.Proof.Gen.KernelIdeal.Skeleton
import proofs.«422948_j83262236000379_3_alg».proof.Proof.CellSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayCell

open Cert.KernelIdeal Cert.KernelIdeal.Gen Idealize.ShloMosaic Idealize.ShloMosaic.ValueIdx

/-- The block's pre-activation of column `q` at row `p` of the block. -/
def bpre (xb hb : Vec Ideal S512x1024 .f32) (wl wh : Vec Ideal S1024x4096 .bf16) (bb : Vec Ideal S1x4096 .f32)
    (p : Fin 512) (q : Fin 4096) : EReal :=
  (∑ k : Fin 1024, xb (ix2 p k) * wl (ix2 k q) + ∑ k : Fin 1024, hb (ix2 p k) * wh (ix2 k q)) + bb (ix2 (0 : Fin 1) q)

/-! ## The matrix product's operand indices

The product contracts axis 1 of its [512, 1024] left operand with axis 0 of its [1024, 4096] right operand: at the
output element (p, q) and the contraction position k the left operand is read at (p, k) and the right one at (k, q). -/

/-- The left operand's row is the output's row. -/
theorem lhs_dot_0 (i : S512x4096.Idx) (q : dot_S512x1024_S1024x4096_S512x4096_1_0_0_1_n_n.contr.Idx) :
    (dot_S512x1024_S1024x4096_S512x4096_1_0_0_1_n_n.lhsIdx i q 0).val = (i 0).val := by
  unfold DotDims.lhsIdx
  rw [dif_neg (show ¬(0 : Fin S512x1024.rank) ∈ dot_S512x1024_S1024x4096_S512x4096_1_0_0_1_n_n.lhsBatch by decide), dif_pos (show (0 : Fin S512x1024.rank) ∈ dot_S512x1024_S1024x4096_S512x4096_1_0_0_1_n_n.lhsNonContracting by decide)]
  rfl
/-- The left operand's column is the contraction position. -/
theorem lhs_dot_1 (i : S512x4096.Idx) (q : dot_S512x1024_S1024x4096_S512x4096_1_0_0_1_n_n.contr.Idx) :
    (dot_S512x1024_S1024x4096_S512x4096_1_0_0_1_n_n.lhsIdx i q 1).val = (q ⟨0, by decide⟩).val :=
  dot_S512x1024_S1024x4096_S512x4096_1_0_0_1_n_n.lhsIdx_val_of_single rfl i q
/-- The right operand's row is the contraction position. -/
theorem rhs_dot_0 (i : S512x4096.Idx) (q : dot_S512x1024_S1024x4096_S512x4096_1_0_0_1_n_n.contr.Idx) :
    (dot_S512x1024_S1024x4096_S512x4096_1_0_0_1_n_n.rhsIdx i q 0).val = (q ⟨0, by decide⟩).val :=
  dot_S512x1024_S1024x4096_S512x4096_1_0_0_1_n_n.rhsIdx_val_of_single rfl i q
/-- The right operand's column is the output's column. -/
theorem rhs_dot_1 (i : S512x4096.Idx) (q : dot_S512x1024_S1024x4096_S512x4096_1_0_0_1_n_n.contr.Idx) :
    (dot_S512x1024_S1024x4096_S512x4096_1_0_0_1_n_n.rhsIdx i q 1).val = (i 1).val := by
  unfold DotDims.rhsIdx
  rw [dif_neg (show ¬(1 : Fin S1024x4096.rank) ∈ dot_S512x1024_S1024x4096_S512x4096_1_0_0_1_n_n.rhsBatch by decide), dif_pos (show (1 : Fin S1024x4096.rank) ∈ dot_S512x1024_S1024x4096_S512x4096_1_0_0_1_n_n.rhsNonContracting by decide)]
  rfl

/-- A matrix product into the zero accumulator, at (p, q): the sum over the 1024 contracted positions of the left
    operand's row `p` times the right operand's column `q`. -/
theorem matmul_zero_apply (a : FVec Ideal S512x1024 .bf16) (w : FVec Ideal S1024x4096 .bf16) (p : Fin 512) (q : Fin 4096) :
    matmul (F := Ideal) dot_S512x1024_S1024x4096_S512x4096_1_0_0_1_n_n none a w (constant (F := Ideal) S512x4096 .f32 0x00000000#32) (ix2 p q)
      = ∑ k : Fin 1024, a (ix2 p k) * w (ix2 k q) := by
  simp only [matmul]
  rw [Ideal.matmul_constant_zero_apply, ← Equiv.sum_comp (contrEquiv1 dot_S512x1024_S1024x4096_S512x4096_1_0_0_1_n_n 1024 rfl rfl).symm]
  refine Finset.sum_congr rfl fun k _ => ?_
  have hk := contrEquiv1_symm_val dot_S512x1024_S1024x4096_S512x4096_1_0_0_1_n_n 1024 rfl rfl k
  have el : dot_S512x1024_S1024x4096_S512x4096_1_0_0_1_n_n.lhsIdx (ix2 p q) ((contrEquiv1 dot_S512x1024_S1024x4096_S512x4096_1_0_0_1_n_n 1024 rfl rfl).symm k) = ix2 p k := funext fun a => Fin.ext (by
    match a with
    | ⟨0, _⟩ => exact lhs_dot_0 _ _
    | ⟨1, _⟩ => exact (lhs_dot_1 _ _).trans hk)
  have er : dot_S512x1024_S1024x4096_S512x4096_1_0_0_1_n_n.rhsIdx (ix2 p q) ((contrEquiv1 dot_S512x1024_S1024x4096_S512x4096_1_0_0_1_n_n 1024 rfl rfl).symm k) = ix2 k q := funext fun a => Fin.ext (by
    match a with
    | ⟨0, _⟩ => exact (rhs_dot_0 _ _).trans hk
    | ⟨1, _⟩ => exact rhs_dot_1 _ _)
  rw [el, er]

/-! ## The layout operations at (p, q) -/

/-- The bias row, cast to its own shape and broadcast down the 512 rows, reads the row's column `q` at every row. -/
theorem bias_apply (bb : FVec Ideal S1x4096 .f32) (p : Fin 512) (q : Fin 4096) :
    broadcastTo S512x4096 (shapeCast S1x4096 bb shapeCasts_S1x4096_S1x4096) broadcasts_S1x4096_S512x4096 (ix2 p q)
      = bb (ix2 (0 : Fin 1) q) := by
  rw [shapeCast_self]
  exact broadcastTo_apply bb broadcasts_S1x4096_S512x4096 (ix2 p q) (ix2 (0 : Fin 1) q) (fun a => match a with
    | ⟨0, _⟩ => by show 0 = if (1 : Nat) = 1 then 0 else p.val; rw [if_pos rfl]
    | ⟨1, _⟩ => by show q.val = if (4096 : Nat) = 1 then 0 else q.val; rw [if_neg (by decide)])

/-- A 1024-column slice of a [512, 4096] array starting at column `o`, at (p, j): the array at (p, o + j). -/
theorem slice_apply (o : Nat) (y : S512x4096.Idx → EReal) (h : S512x4096.Slices ![0, o] S512x1024) (p : Fin 512) (j : Fin 1024)
    (c : Fin 4096) (hc : c.val = o + j.val) :
    extractStridedSlice S512x1024 ![0, o] y h (ix2 p j) = y (ix2 p c) :=
  extractStridedSlice_apply ![0, o] y h (ix2 p j) (ix2 p c) (fun a => match a with
    | ⟨0, _⟩ => by show p.val = 0 + p.val; omega
    | ⟨1, _⟩ => by show c.val = o + j.val; exact hc)

/-! ## The three payloads at an element -/

theorem pay1_apply (xb hb : Vec Ideal S512x1024 .f32) (wl wh : Vec Ideal S1024x4096 .bf16) (bb : Vec Ideal S1x4096 .f32)
    (p : Fin 512) (q : Fin 4096) :
    k0_pay1 (F := Ideal) xb hb wl wh bb (ix2 p q) = bpre xb hb wl wh bb p q := by
  have e1 : matmul (F := Ideal) dot_S512x1024_S1024x4096_S512x4096_1_0_0_1_n_n none (truncf .bf16 xb bitsLt_bf16_f32) wl
      (constant (F := Ideal) S512x4096 .f32 0x00000000#32) (ix2 p q) = ∑ k : Fin 1024, xb (ix2 p k) * wl (ix2 k q) :=
    matmul_zero_apply _ _ p q
  have e2 : matmul (F := Ideal) dot_S512x1024_S1024x4096_S512x4096_1_0_0_1_n_n none (truncf .bf16 hb bitsLt_bf16_f32) wh
      (constant (F := Ideal) S512x4096 .f32 0x00000000#32) (ix2 p q) = ∑ k : Fin 1024, hb (ix2 p k) * wh (ix2 k q) :=
    matmul_zero_apply _ _ p q
  have e3 := bias_apply bb p q
  unfold k0_pay1 bpre
  exact congrArg₂ (· + ·) (congrArg₂ (· + ·) e1 e2) e3

theorem pay2_apply (xb hb : Vec Ideal S512x1024 .f32) (wl wh : Vec Ideal S1024x4096 .bf16) (bb : Vec Ideal S1x4096 .f32)
    (cb : Vec Ideal S512x1024 .f32) (p : Fin 512) (j : Fin 1024) :
    k0_pay2 (F := Ideal) xb hb wl wh bb cb (ix2 p j)
      = Ideal.logistic (bpre xb hb wl wh bb p (Cert.Cell.col 0 j)) * cb (ix2 p j)
        + Ideal.logistic (bpre xb hb wl wh bb p (Cert.Cell.col 1 j)) * Ideal.tanh (bpre xb hb wl wh bb p (Cert.Cell.col 2 j)) := by
  have g0 : extractStridedSlice S512x1024 ![0, 0] (k0_pay1 (F := Ideal) xb hb wl wh bb) slices_S512x4096_o0_0_S512x1024 (ix2 p j)
      = bpre xb hb wl wh bb p (Cert.Cell.col 0 j) :=
    (slice_apply 0 _ _ p j (Cert.Cell.col 0 j) (by show (0 : Nat) * 1024 + j.val = 0 + j.val; omega)).trans (pay1_apply xb hb wl wh bb p _)
  have g1 : extractStridedSlice S512x1024 ![0, 1024] (k0_pay1 (F := Ideal) xb hb wl wh bb) slices_S512x4096_o0_1024_S512x1024 (ix2 p j)
      = bpre xb hb wl wh bb p (Cert.Cell.col 1 j) :=
    (slice_apply 1024 _ _ p j (Cert.Cell.col 1 j) (by show (1 : Nat) * 1024 + j.val = 1024 + j.val; omega)).trans (pay1_apply xb hb wl wh bb p _)
  have g2 : extractStridedSlice S512x1024 ![0, 2048] (k0_pay1 (F := Ideal) xb hb wl wh bb) slices_S512x4096_o0_2048_S512x1024 (ix2 p j)
      = bpre xb hb wl wh bb p (Cert.Cell.col 2 j) :=
    (slice_apply 2048 _ _ p j (Cert.Cell.col 2 j) (by show (2 : Nat) * 1024 + j.val = 2048 + j.val; omega)).trans (pay1_apply xb hb wl wh bb p _)
  unfold k0_pay2
  exact congrArg₂ (· + ·) (congrArg (fun t => Ideal.logistic t * cb (ix2 p j)) g0)
    (congrArg₂ (fun s t => Ideal.logistic s * Ideal.tanh t) g1 g2)

theorem pay3_apply (xb hb : Vec Ideal S512x1024 .f32) (wl wh : Vec Ideal S1024x4096 .bf16) (bb : Vec Ideal S1x4096 .f32)
    (cb : Vec Ideal S512x1024 .f32) (p : Fin 512) (j : Fin 1024) :
    k0_pay3 (F := Ideal) xb hb wl wh bb cb (ix2 p j)
      = Ideal.logistic (bpre xb hb wl wh bb p (Cert.Cell.col 3 j)) * Ideal.tanh (k0_pay2 (F := Ideal) xb hb wl wh bb cb (ix2 p j)) := by
  have g3 : extractStridedSlice S512x1024 ![0, 3072] (k0_pay1 (F := Ideal) xb hb wl wh bb) slices_S512x4096_o0_3072_S512x1024 (ix2 p j)
      = bpre xb hb wl wh bb p (Cert.Cell.col 3 j) :=
    (slice_apply 3072 _ _ p j (Cert.Cell.col 3 j) (by show (3 : Nat) * 1024 + j.val = 3072 + j.val; omega)).trans (pay1_apply xb hb wl wh bb p _)
  unfold k0_pay3
  exact congrArg (fun t => Ideal.logistic t * Ideal.tanh (k0_pay2 (F := Ideal) xb hb wl wh bb cb (ix2 p j))) g3

end Cert.KernelIdeal.PayCell

end
-- ==== Proof.KernelIdeal.PointCell.lean ====
/-
  One element of what the body stores at a grid point, as the specification's cell.

  The body loads the weights' two halves through the rectangles at offsets (0, 0) and (1024, 0) of extent [1024, 4096]
  of the [2048, 4096] array: row k of a half is row k, respectively 1024 + k, of the array. What the copy of the whole
  weights array delivers is the array itself, the four matrices side by side. Over the blocks at point t — rows
  512·t … 512·t + 511 of the input, hidden and cell arrays, and the bias row — element (p, j) of the body's two stored
  values is therefore the specification's new cell state, respectively new hidden state, at row 512·t + p and column j.
-/
import proofs.«422948_j83262236000379_3_alg».proof.Proof.KernelIdeal.Runs
import proofs.«422948_j83262236000379_3_alg».proof.Proof.KernelIdeal.Blocks
import proofs.«422948_j83262236000379_3_alg».proof.Proof.PayCell
import proofs.«422948_j83262236000379_3_alg».proof.Proof.CellSpec
import Idealize.ShloMosaic.Lib.ValueIdx
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-! ## The weights the body loads -/

/-- Row `k` of the lower half is row `k` of the array. -/
theorem wlo_apply (D : Vec Ideal S2048x4096 .bf16) (k : Fin 1024) (q : Fin 4096) : wlo D (ix2 k q) = D (ix2 (Cert.Cell.lo k) q) := by
  unfold wlo
  show D ((Rect.unit (s := S2048x4096) ![0, 0] S1024x4096.size inb_S2048x4096_S1024x4096_0_0).idx (ix2 k q)) = _
  refine congrArg D (funext fun a => Fin.ext ?_)
  match a with
  | ⟨0, _⟩ => show 0 + 1 * k.val = k.val; omega
  | ⟨1, _⟩ => show 0 + 1 * q.val = q.val; omega

/-- Row `k` of the upper half is row `1024 + k` of the array. -/
theorem whi_apply (D : Vec Ideal S2048x4096 .bf16) (k : Fin 1024) (q : Fin 4096) : whi D (ix2 k q) = D (ix2 (Cert.Cell.hi k) q) := by
  unfold whi
  show D ((Rect.unit (s := S2048x4096) ![1024, 0] S1024x4096.size inb_S2048x4096_S1024x4096_1024_0).idx (ix2 k q)) = _
  refine congrArg D (funext fun a => Fin.ext ?_)
  match a with
  | ⟨0, _⟩ => show 1024 + 1 * k.val = 1024 + k.val; omega
  | ⟨1, _⟩ => show 0 + 1 * q.val = q.val; omega

/-- What the copy of the whole weights array delivers, from the array as the region finds it: the four weight
    matrices side by side. -/
theorem wts_eq (c : Dev nD) (y : S2048x4096.Idx) : wts (F := Ideal) c (V m c main_v1) y = wAllK m c y :=
  wts_apply m c y

/-! ## The pre-activation over the blocks at a point -/

/-- The block's pre-activation of column `q` at row `p` of block `t` is the specification's at row 512·t + p. -/
theorem bpre_eq (c : Dev nD) (t : Fin cfg0.N) (p : Fin 512) (q : Fin 4096) :
    PayCell.bpre (xblk m c t) (hblk m c t) (wlo (wts (F := Ideal) c (V m c main_v1))) (whi (wts (F := Ideal) c (V m c main_v1))) (bblk m c t) p q
      = Cert.Cell.pre (m ((c : Thread nD τ).loc main_arg0)) (m ((c : Thread nD τ).loc main_arg1)) (wAllK m c) (bAllK m c) (rowOf t p) q := by
  unfold PayCell.bpre Cert.Cell.pre
  refine congrArg₂ (· + ·) (congrArg₂ (· + ·) (Finset.sum_congr rfl fun k _ => ?_) (Finset.sum_congr rfl fun k _ => ?_)) ?_
  · exact congrArg₂ (· * ·) (xblk_apply m c t p k) ((wlo_apply _ k q).trans (wts_eq m c _))
  · exact congrArg₂ (· * ·) (hblk_apply m c t p k) ((whi_apply _ k q).trans (wts_eq m c _))
  · exact bblk_apply m c t q

/-! ## The two stored values at an element -/

/-- Element (p, j) of the cell block the body stores at point `t` is the specification's new cell state at row
    512·t + p, column j. -/
theorem pointC (c : Dev nD) (t : Fin cfg0.N) (p : Fin 512) (j : Fin 1024) :
    k0_pay2 (F := Ideal) (iblk m c 0 t) (iblk m c 1 t) (wlo (wts c (V m c main_v1))) (whi (wts c (V m c main_v1))) (iblk m c 3 t) (iblk m c 2 t) (ix2 p j)
      = Cert.Cell.cNewAt (m ((c : Thread nD τ).loc main_arg0)) (m ((c : Thread nD τ).loc main_arg1)) (m ((c : Thread nD τ).loc main_arg2)) (wAllK m c) (bAllK m c) (rowOf t p) j := by
  refine (PayCell.pay2_apply (xblk m c t) (hblk m c t) (wlo (wts (F := Ideal) c (V m c main_v1))) (whi (wts (F := Ideal) c (V m c main_v1)))
    (bblk m c t) (cblk m c t) p j).trans ?_
  unfold Cert.Cell.cNewAt
  exact congrArg₂ (· + ·)
    (congrArg₂ (fun a b => Ideal.logistic a * b) (bpre_eq m c t p _) (cblk_apply m c t p j))
    (congrArg₂ (fun a b => Ideal.logistic a * Ideal.tanh b) (bpre_eq m c t p _) (bpre_eq m c t p _))

/-- Element (p, j) of the hidden block the body stores at point `t` is the specification's new hidden state at row
    512·t + p, column j. -/
theorem pointH (c : Dev nD) (t : Fin cfg0.N) (p : Fin 512) (j : Fin 1024) :
    k0_pay3 (F := Ideal) (iblk m c 0 t) (iblk m c 1 t) (wlo (wts c (V m c main_v1))) (whi (wts c (V m c main_v1))) (iblk m c 3 t) (iblk m c 2 t) (ix2 p j)
      = Cert.Cell.hNewAt (m ((c : Thread nD τ).loc main_arg0)) (m ((c : Thread nD τ).loc main_arg1)) (m ((c : Thread nD τ).loc main_arg2)) (wAllK m c) (bAllK m c) (rowOf t p) j := by
  refine (PayCell.pay3_apply (xblk m c t) (hblk m c t) (wlo (wts (F := Ideal) c (V m c main_v1))) (whi (wts (F := Ideal) c (V m c main_v1)))
    (bblk m c t) (cblk m c t) p j).trans ?_
  unfold Cert.Cell.hNewAt
  exact congrArg₂ (fun a b => Ideal.logistic a * Ideal.tanh b) (bpre_eq m c t p _) (pointC m c t p j)

end Cert.KernelIdeal.Fr

end
-- ==== Proof.KernelIdeal.ArrayCell.lean ====
/-
  From the blocks to the arrays: after the run the kernel's two result arrays are the cell of CellSpec.

  The grid has eight points and both output windows' index maps send point t to block (t, 0): block t of a result
  array is rows 512·t … 512·t + 511, all 1024 columns. So the eight blocks tile the [4096, 1024] array, row r lying
  in the block of point r / 512. What point t leaves in an output block is, element by element, the cell's value at
  row 512·t + p and column j, that is, the specification's array restricted to the block's rows. An array whose every
  block is written with the matching block of one array ends equal to that array.
-/
import proofs.«422948_j83262236000379_3_alg».proof.Proof.KernelIdeal.Frame
import proofs.«422948_j83262236000379_3_alg».proof.Proof.KernelIdeal.PointCell
import proofs.«422948_j83262236000379_3_alg».proof.Proof.KernelIdeal.Blocks
import proofs.«422948_j83262236000379_3_alg».proof.Proof.CellSpec

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg)

/-! ## The output blocks tile the result arrays -/

/-- The output windows' index maps over the grid: both are at block (t, 0) at point t. -/
theorem out_idx_facts : ∀ t : Fin cfg0.N,
    win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Element (p, j) of the new hidden state's block `t` is element (512·t + p, j) of the array. -/
theorem embH (t : Fin cfg0.N) (p : Fin 512) (j : Fin 1024) :
    ((cfg0.win 4).blk t).view.emb (ix2 p j) = (ix2 (rowOf t p) j : S4096x1024.Idx) := by
  obtain ⟨e0, e1, -⟩ := out_idx_facts t
  funext a
  apply Fin.ext
  match a with
  | ⟨0, _⟩ => show win0_4.index t (0 : Fin 2) * 512 + 1 * p.val = 512 * t.val + p.val; omega
  | ⟨1, _⟩ => show win0_4.index t (1 : Fin 2) * 1024 + 1 * j.val = j.val; omega

/-- Element (p, j) of the new cell state's block `t` is element (512·t + p, j) of the array. -/
theorem embC (t : Fin cfg0.N) (p : Fin 512) (j : Fin 1024) :
    ((cfg0.win 5).blk t).view.emb (ix2 p j) = (ix2 (rowOf t p) j : S4096x1024.Idx) := by
  obtain ⟨-, -, e0, e1⟩ := out_idx_facts t
  funext a
  apply Fin.ext
  match a with
  | ⟨0, _⟩ => show win0_5.index t (0 : Fin 2) * 512 + 1 * p.val = 512 * t.val + p.val; omega
  | ⟨1, _⟩ => show win0_5.index t (1 : Fin 2) * 1024 + 1 * j.val = j.val; omega

/-- An index of the hidden-state array is in point `t`'s block iff each coordinate is in the block's range on its axis. -/
theorem mem_blkH (t : Fin cfg0.N) (i : S4096x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v4_0).slice (win0_4.rect t)).set ↔ _
  rw [View.set_slice_whole, Rect.mem_set_unit]
  exact Iff.rfl

/-- The same for the cell-state array. -/
theorem mem_blkC (t : Fin cfg0.N) (i : S4096x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v4_1).slice (win0_5.rect t)).set ↔ _
  rw [View.set_slice_whole, Rect.mem_set_unit]
  exact Iff.rfl

/-- The point whose blocks hold row `r`: `r / 512`, one of the grid's eight. -/
def pointOf (r : Fin 4096) : Fin cfg0.N := ⟨r.val / 512, by have h := r.isLt; rw [show cfg0.N = 8 from N_0]; omega⟩

/-- Every index of the hidden-state array is in some point's block: row `r` in that of point `r / 512`. -/
theorem coverH (i : S4096x1024.Idx) : ∃ t : Fin cfg0.N, (cfg0.win 4).flush t = true ∧ i ∈ ((cfg0.win 4).blk t).view.set := by
  have h0 : (i 0).val < 4096 := (i 0).isLt
  have h1 : (i 1).val < 1024 := (i 1).isLt
  refine ⟨pointOf ⟨(i 0).val, h0⟩, flush0_4 _, ?_⟩
  obtain ⟨e0, e1, -⟩ := out_idx_facts (pointOf ⟨(i 0).val, h0⟩)
  have ht : (pointOf ⟨(i 0).val, h0⟩).val = (i 0).val / 512 := rfl
  rw [mem_blkH]
  intro a
  match a with
  | ⟨0, _⟩ => show win0_4.index _ (0 : Fin 2) * 512 ≤ (i 0).val ∧ (i 0).val < win0_4.index _ (0 : Fin 2) * 512 + 512; omega
  | ⟨1, _⟩ => show win0_4.index _ (1 : Fin 2) * 1024 ≤ (i 1).val ∧ (i 1).val < win0_4.index _ (1 : Fin 2) * 1024 + 1024; omega

/-- Every index of the cell-state array likewise. -/
theorem coverC (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  refine ⟨pointOf ⟨(i 0).val, h0⟩, flush0_5 _, ?_⟩
  obtain ⟨-, -, e0, e1⟩ := out_idx_facts (pointOf ⟨(i 0).val, h0⟩)
  have ht : (pointOf ⟨(i 0).val, h0⟩).val = (i 0).val / 512 := rfl
  rw [mem_blkC]
  intro a
  match a with
  | ⟨0, _⟩ => show win0_5.index _ (0 : Fin 2) * 512 ≤ (i 0).val ∧ (i 0).val < win0_5.index _ (0 : Fin 2) * 512 + 512; omega
  | ⟨1, _⟩ => show win0_5.index _ (1 : Fin 2) * 1024 ≤ (i 1).val ∧ (i 1).val < win0_5.index _ (1 : Fin 2) * 1024 + 1024; omega

/-! ## Each block after its point is the specification's array on those rows -/

/-- What point `t` writes back to the hidden-state array is block `t` of the specification's new hidden state:
    element (p, j) of the block is the payload there, which is the cell's value at row 512·t + p. -/
theorem flushedH_eq (c : Dev nD) (t : Fin cfg0.N) :
    (dats m 0 c).flushed 4 t = ((cfg0.win 4).blk t).view.read (Elt Ideal) (Cert.Cell.hNew (m ((c : Thread nD τ).loc main_arg0)) (m ((c : Thread nD τ).loc main_arg1)) (m ((c : Thread nD τ).loc main_arg2)) (wAllK m c) (bAllK m c)) := by
  show (cfg0.win 4).cut (grid0.coords t) ((dats m 0 c).after 4 t) = _
  rw [after0_4]
  funext y
  obtain ⟨p, j, rfl⟩ : ∃ (p : Fin 512) (j : Fin 1024), y = ix2 p j := ⟨y 0, y 1, eq_ix2 (n0 := 512) (n1 := 1024) y⟩
  show (outH m c t : Vec Ideal S512x1024 .f32) (ix2 p j) = Cert.Cell.hNew (m ((c : Thread nD τ).loc main_arg0)) (m ((c : Thread nD τ).loc main_arg1)) (m ((c : Thread nD τ).loc main_arg2)) (wAllK m c) (bAllK m c) (((cfg0.win 4).blk t).view.emb (ix2 p j))
  rw [embH, Cert.Cell.hNew_apply]
  exact pointH m c t p j

/-- What point `t` writes back to the cell-state array is block `t` of the specification's new cell state. -/
theorem flushedC_eq (c : Dev nD) (t : Fin cfg0.N) :
    (dats m 0 c).flushed 5 t = ((cfg0.win 5).blk t).view.read (Elt Ideal) (Cert.Cell.cNew (m ((c : Thread nD τ).loc main_arg0)) (m ((c : Thread nD τ).loc main_arg1)) (m ((c : Thread nD τ).loc main_arg2)) (wAllK m c) (bAllK m c)) := by
  show (cfg0.win 5).cut (grid0.coords t) ((dats m 0 c).after 5 t) = _
  rw [after0_5]
  funext y
  obtain ⟨p, j, rfl⟩ : ∃ (p : Fin 512) (j : Fin 1024), y = ix2 p j := ⟨y 0, y 1, eq_ix2 (n0 := 512) (n1 := 1024) y⟩
  show (outC m c t : Vec Ideal S512x1024 .f32) (ix2 p j) = Cert.Cell.cNew (m ((c : Thread nD τ).loc main_arg0)) (m ((c : Thread nD τ).loc main_arg1)) (m ((c : Thread nD τ).loc main_arg2)) (wAllK m c) (bAllK m c) (((cfg0.win 5).blk t).view.emb (ix2 p j))
  rw [embC, Cert.Cell.cNew_apply]
  exact pointC m c t p j

/-! ## The arrays after the run -/

/-- The eight blocks tile the array, so after the last write-back the first result array is the new hidden state. -/
theorem final4 (c : Dev nD) : (dats m 0 c).arrAt 4 cfg0.N = Cert.Cell.hNew (m ((c : Thread nD τ).loc main_arg0)) (m ((c : Thread nD τ).loc main_arg1)) (m ((c : Thread nD τ).loc main_arg2)) (wAllK m c) (bAllK m c) :=
  (dats m 0 c).arrAt_eq_of_cover 4 (Cert.Cell.hNew (m ((c : Thread nD τ).loc main_arg0)) (m ((c : Thread nD τ).loc main_arg1)) (m ((c : Thread nD τ).loc main_arg2)) (wAllK m c) (bAllK m c)) (fun t _ => flushedH_eq m c t) (fun i => coverH i)

/-- And the second the new cell state. -/
theorem final5 (c : Dev nD) : (dats m 0 c).arrAt 5 cfg0.N = Cert.Cell.cNew (m ((c : Thread nD τ).loc main_arg0)) (m ((c : Thread nD τ).loc main_arg1)) (m ((c : Thread nD τ).loc main_arg2)) (wAllK m c) (bAllK m c) :=
  (dats m 0 c).arrAt_eq_of_cover 5 (Cert.Cell.cNew (m ((c : Thread nD τ).loc main_arg0)) (m ((c : Thread nD τ).loc main_arg1)) (m ((c : Thread nD τ).loc main_arg2)) (wAllK m c) (bAllK m c)) (fun t _ => flushedC_eq m c t) (fun i => coverC i)

/-! ## The run -/

/-- Every weakly fair execution of @main ends with the new hidden state in its first result and the new cell state in
    its second, the arguments unchanged. -/
theorem run_cell : θ_run (defs (F := Ideal)) (onTc (τ := τ) (main (F := Ideal))) ⟨m, fun _ => 0, ρ⟩ fun r => ∀ c : Dev nD,
      r.2.mem ((c.tc : Thread nD τ).loc main_v4_0) = Cert.Cell.hNew (m ((c.tc : Thread nD τ).loc main_arg0)) (m ((c.tc : Thread nD τ).loc main_arg1)) (m ((c.tc : Thread nD τ).loc main_arg2)) (wAllK m c) (bAllK m c)
      ∧ r.2.mem ((c.tc : Thread nD τ).loc main_v4_1) = Cert.Cell.cNew (m ((c.tc : Thread nD τ).loc main_arg0)) (m ((c.tc : Thread nD τ).loc main_arg1)) (m ((c.tc : Thread nD τ).loc main_arg2)) (wAllK m c) (bAllK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 4).trans (final4 m c), ((h c).1 5).trans (final5 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.KernelIdeal.Fr

end
-- ==== Proof.RefCell.lean ====
/-
  The reference computes the cell of CellSpec: its run's two results are `hNew` and `cNew` of its argument arrays,
  with `W` the four weight matrices side by side and `b` the four biases end to end, as its own @main lays them out.
  The reference contracts over all 2048 rows of `W` at once, against the [4096, 2048] array that holds `x` beside `h`;
  that sum is the sum of its two halves, and on each half the concatenated array is `x`, respectively `h`. Its
  `1 / (1 + e^(−z))` is the logistic function of the extended reals by definition, the literal `1.0` being the real 1.
-/
import proofs.«422948_j83262236000379_3_alg».proof.Defs
import proofs.«422948_j83262236000379_3_alg».proof.Proof.Gen.ReferenceIdeal
import proofs.«422948_j83262236000379_3_alg».proof.Proof.Gen.ReferenceIdeal.Run
import proofs.«422948_j83262236000379_3_alg».proof.Proof.Gen.ReferenceIdeal.Read
import proofs.«422948_j83262236000379_3_alg».proof.Proof.CellSpec
import Mathlib.Algebra.BigOperators.Fin

noncomputable section

open scoped BigOperators

namespace Cert.ReferenceIdeal.RefCell

open Cert.ReferenceIdeal Cert.ReferenceIdeal.Gen Idealize.ShloMosaic Idealize.ShloMosaic.TcCoe Idealize.SL.Sem
open Idealize.ShloMosaic.ValueIdx
open Cert.ReferenceIdeal.Read

/-- The four gates' weights side by side, as @main concatenates them (forget, input, candidate, output). -/
def wAll (m : (ℓ : Loc nD τ sig) → Buf (Elt Ideal) ℓ) (c : Dev nD) : Cert.Cell.WAll :=
  concatenate S2048x4096 1 [⟨S2048x1024, (m ((c.tc : Thread nD τ).loc main_arg4))⟩, ⟨S2048x1024, (m ((c.tc : Thread nD τ).loc main_arg3))⟩, ⟨S2048x1024, (m ((c.tc : Thread nD τ).loc main_arg5))⟩, ⟨S2048x1024, (m ((c.tc : Thread nD τ).loc main_arg6))⟩] Facts₀.concatenates_S2048x1024_S2048x1024_S2048x1024_S2048x1024_S2048x4096_d1

/-- The four gates' biases end to end, in the same order. -/
def bAll (m : (ℓ : Loc nD τ sig) → Buf (Elt Ideal) ℓ) (c : Dev nD) : Cert.Cell.BAll :=
  concatenate S4096 0 [⟨S1024, (m ((c.tc : Thread nD τ).loc main_arg8))⟩, ⟨S1024, (m ((c.tc : Thread nD τ).loc main_arg7))⟩, ⟨S1024, (m ((c.tc : Thread nD τ).loc main_arg9))⟩, ⟨S1024, (m ((c.tc : Thread nD τ).loc main_arg10))⟩] Facts₀.concatenates_S1024_S1024_S1024_S1024_S4096_d0

/-! ## The scalar facts -/

/-- The word of the literal `1.0` denotes the real number 1: sign 0, exponent field 127 (the bias), fraction 0. -/
theorem ofBits_one_f32 : Ideal.ofBits .f32 0x3F800000#32 = 1 := by
  simp [Ideal.ofBits, Ideal.ieee, -EReal.coe_mul]; norm_num

/-- `1 / (1 + e^(−z))`, spelled in the host's operations with the literal `1.0`, is the logistic function. -/
theorem host_logistic (z : EReal) :
    FloatOps.hostDivf (F := Ideal) (φ := .f32) (FloatOps.ofBits .f32 0x3F800000#32)
      (FloatOps.addf (FloatOps.ofBits .f32 0x3F800000#32) (FloatOps.hostUnary .exp (FloatOps.hostNegf z)))
      = Ideal.logistic z := by
  simp only [Ideal.hostDivf_def, Ideal.addf_def, Ideal.hostUnary_exp_def, Ideal.hostNegf_def, Ideal.negf_def,
    Ideal.ofBits_def, ofBits_one_f32]
  rfl

/-- A sum over 2048 terms is the sum of its two halves. -/
theorem sum_halves {M : Type*} [AddCommMonoid M] (f : Fin 2048 → M) :
    ∑ k, f k = ∑ k : Fin 1024, f (Cert.Cell.lo k) + ∑ k : Fin 1024, f (Cert.Cell.hi k) :=
  Fin.sum_univ_add (a := 1024) (b := 1024) f

/-! ## The arrays at an index -/

/-- The array holding `x` beside `h`, at a column of the lower half, is `x`. -/
theorem xh_lo (x h : (⟨S4096x1024, .f32⟩ : BufTy).Contents (Elt Ideal)) (j : S4096x2048.Idx) (r : Fin 4096) (k : Fin 1024)
    (h0 : (j 0).val = r.val) (h1 : (j 1).val = k.val) :
    val_main_v0 (F := Ideal) x h j = x (ix2 r k) :=
  concatenate_pair_apply_left 1 x h _ j rfl (ix2 r k) (fun b => match b with
    | ⟨0, _⟩ => h0.symm
    | ⟨1, _⟩ => h1.symm)

/-- At a column of the upper half it is `h`, 1024 columns to the left. -/
theorem xh_hi (x h : (⟨S4096x1024, .f32⟩ : BufTy).Contents (Elt Ideal)) (j : S4096x2048.Idx) (r : Fin 4096) (k : Fin 1024)
    (h0 : (j 0).val = r.val) (h1 : (j 1).val = 1024 + k.val) :
    val_main_v0 (F := Ideal) x h j = h (ix2 r k) :=
  concatenate_pair_apply_right 1 x h _ j rfl rfl (ix2 r k)
    (fun b hb => match b with
      | ⟨0, _⟩ => h0.symm
      | ⟨1, _⟩ => absurd rfl hb)
    (by show k.val + 1024 = (j 1).val; omega)

/-- The pre-activation: the contraction over the 2048 rows of `W` against `x` beside `h`, plus the broadcast bias. -/
theorem v6_eq (x0 x1 : (⟨S4096x1024, .f32⟩ : BufTy).Contents (Elt Ideal)) (x3 x4 x5 x6 : (⟨S2048x1024, .f32⟩ : BufTy).Contents (Elt Ideal))
    (x7 x8 x9 x10 : (⟨S1024, .f32⟩ : BufTy).Contents (Elt Ideal)) (r q : Fin 4096) :
    val_main_v6 (F := Ideal) x0 x1 x3 x4 x5 x6 x7 x8 x9 x10 (ix2 r q)
      = Cert.Cell.pre x0 x1 (val_main_v1 (F := Ideal) x3 x4 x5 x6) (val_main_v2 (F := Ideal) x7 x8 x9 x10) r q := by
  rw [val_main_v6_apply, val_main_v3_apply, val_main_v5_apply, val_main_v4_apply, Ideal.addf_def, sum_halves]
  unfold Cert.Cell.pre
  congr 1
  · congr 1
    · refine Finset.sum_congr rfl fun k _ => ?_
      rw [xh_lo x0 x1 _ r k rfl rfl]
      congr 2
      funext a
      match a with
      | ⟨0, _⟩ => rfl
      | ⟨1, _⟩ => rfl
    · refine Finset.sum_congr rfl fun k _ => ?_
      rw [xh_hi x0 x1 _ r k rfl rfl]
      congr 2
      funext a
      match a with
      | ⟨0, _⟩ => rfl
      | ⟨1, _⟩ => rfl
  · congr 1
    funext a
    match a with
    | ⟨0, _⟩ => rfl

/-- An index of the [4096, 4096] array by its coordinates, the column written as a gate's. -/
theorem slice_idx (n : Fin 4) (r : Fin 4096) (j : Fin 1024) (i : S4096x4096.Idx) (h0 : (i 0).val = r.val)
    (h1 : (i 1).val = n.val * 1024 + j.val) : i = ix2 r (Cert.Cell.col n j) := by
  funext a
  match a with
  | ⟨0, _⟩ => exact Fin.ext h0
  | ⟨1, _⟩ => exact Fin.ext h1

/-- The slice at column offset 0 reads gate 0's column. -/
theorem v7_eq (x0 x1 : (⟨S4096x1024, .f32⟩ : BufTy).Contents (Elt Ideal)) (x3 x4 x5 x6 : (⟨S2048x1024, .f32⟩ : BufTy).Contents (Elt Ideal))
    (x7 x8 x9 x10 : (⟨S1024, .f32⟩ : BufTy).Contents (Elt Ideal)) (r : Fin 4096) (j : Fin 1024) :
    val_main_v7 (F := Ideal) x0 x1 x3 x4 x5 x6 x7 x8 x9 x10 (ix2 r j) = Cert.Cell.pre x0 x1 (val_main_v1 (F := Ideal) x3 x4 x5 x6) (val_main_v2 (F := Ideal) x7 x8 x9 x10) r (Cert.Cell.col 0 j) := by
  rw [val_main_v7_apply, slice_idx 0 r j (idx_main_v7 (ix2 r j)) rfl (by show j.val = (0 : Fin 4).val * 1024 + j.val; simp), v6_eq]

/-- The slice at column offset 1024 reads gate 1's column. -/
theorem v14_eq (x0 x1 : (⟨S4096x1024, .f32⟩ : BufTy).Contents (Elt Ideal)) (x3 x4 x5 x6 : (⟨S2048x1024, .f32⟩ : BufTy).Contents (Elt Ideal))
    (x7 x8 x9 x10 : (⟨S1024, .f32⟩ : BufTy).Contents (Elt Ideal)) (r : Fin 4096) (j : Fin 1024) :
    val_main_v14 (F := Ideal) x0 x1 x3 x4 x5 x6 x7 x8 x9 x10 (ix2 r j) = Cert.Cell.pre x0 x1 (val_main_v1 (F := Ideal) x3 x4 x5 x6) (val_main_v2 (F := Ideal) x7 x8 x9 x10) r (Cert.Cell.col 1 j) := by
  rw [val_main_v14_apply, slice_idx 1 r j (idx_main_v14 (ix2 r j)) rfl (by show 1024 + j.val = (1 : Fin 4).val * 1024 + j.val; simp), v6_eq]

/-- The slice at column offset 2048 reads gate 2's column. -/
theorem v21_eq (x0 x1 : (⟨S4096x1024, .f32⟩ : BufTy).Contents (Elt Ideal)) (x3 x4 x5 x6 : (⟨S2048x1024, .f32⟩ : BufTy).Contents (Elt Ideal))
    (x7 x8 x9 x10 : (⟨S1024, .f32⟩ : BufTy).Contents (Elt Ideal)) (r : Fin 4096) (j : Fin 1024) :
    val_main_v21 (F := Ideal) x0 x1 x3 x4 x5 x6 x7 x8 x9 x10 (ix2 r j) = Cert.Cell.pre x0 x1 (val_main_v1 (F := Ideal) x3 x4 x5 x6) (val_main_v2 (F := Ideal) x7 x8 x9 x10) r (Cert.Cell.col 2 j) := by
  rw [val_main_v21_apply, slice_idx 2 r j (idx_main_v21 (ix2 r j)) rfl (by show 2048 + j.val = (2 : Fin 4).val * 1024 + j.val; simp), v6_eq]

/-- The slice at column offset 3072 reads gate 3's column. -/
theorem v23_eq (x0 x1 : (⟨S4096x1024, .f32⟩ : BufTy).Contents (Elt Ideal)) (x3 x4 x5 x6 : (⟨S2048x1024, .f32⟩ : BufTy).Contents (Elt Ideal))
    (x7 x8 x9 x10 : (⟨S1024, .f32⟩ : BufTy).Contents (Elt Ideal)) (r : Fin 4096) (j : Fin 1024) :
    val_main_v23 (F := Ideal) x0 x1 x3 x4 x5 x6 x7 x8 x9 x10 (ix2 r j) = Cert.Cell.pre x0 x1 (val_main_v1 (F := Ideal) x3 x4 x5 x6) (val_main_v2 (F := Ideal) x7 x8 x9 x10) r (Cert.Cell.col 3 j) := by
  rw [val_main_v23_apply, slice_idx 3 r j (idx_main_v23 (ix2 r j)) rfl (by show 3072 + j.val = (3 : Fin 4).val * 1024 + j.val; simp), v6_eq]

/-- Gate 0: `1 / (1 + e^(−z))` of its pre-activation is the logistic function of it. -/
theorem v13_eq (x0 x1 : (⟨S4096x1024, .f32⟩ : BufTy).Contents (Elt Ideal)) (x3 x4 x5 x6 : (⟨S2048x1024, .f32⟩ : BufTy).Contents (Elt Ideal))
    (x7 x8 x9 x10 : (⟨S1024, .f32⟩ : BufTy).Contents (Elt Ideal)) (r : Fin 4096) (j : Fin 1024) :
    val_main_v13 (F := Ideal) x0 x1 x3 x4 x5 x6 x7 x8 x9 x10 (ix2 r j) = Ideal.logistic (Cert.Cell.pre x0 x1 (val_main_v1 (F := Ideal) x3 x4 x5 x6) (val_main_v2 (F := Ideal) x7 x8 x9 x10) r (Cert.Cell.col 0 j)) := by
  rw [val_main_v13_apply, val_main_v12_apply, val_main_cst_0_apply, val_main_v11_apply, val_main_v10_apply, val_main_cst_apply, val_main_v9_apply, val_main_v8_apply, v7_eq]
  exact host_logistic _

/-- Gate 1: `1 / (1 + e^(−z))` of its pre-activation is the logistic function of it. -/
theorem v20_eq (x0 x1 : (⟨S4096x1024, .f32⟩ : BufTy).Contents (Elt Ideal)) (x3 x4 x5 x6 : (⟨S2048x1024, .f32⟩ : BufTy).Contents (Elt Ideal))
    (x7 x8 x9 x10 : (⟨S1024, .f32⟩ : BufTy).Contents (Elt Ideal)) (r : Fin 4096) (j : Fin 1024) :
    val_main_v20 (F := Ideal) x0 x1 x3 x4 x5 x6 x7 x8 x9 x10 (ix2 r j) = Ideal.logistic (Cert.Cell.pre x0 x1 (val_main_v1 (F := Ideal) x3 x4 x5 x6) (val_main_v2 (F := Ideal) x7 x8 x9 x10) r (Cert.Cell.col 1 j)) := by
  rw [val_main_v20_apply, val_main_v19_apply, val_main_cst_2_apply, val_main_v18_apply, val_main_v17_apply, val_main_cst_1_apply, val_main_v16_apply, val_main_v15_apply, v14_eq]
  exact host_logistic _

/-- Gate 3: `1 / (1 + e^(−z))` of its pre-activation is the logistic function of it. -/
theorem v29_eq (x0 x1 : (⟨S4096x1024, .f32⟩ : BufTy).Contents (Elt Ideal)) (x3 x4 x5 x6 : (⟨S2048x1024, .f32⟩ : BufTy).Contents (Elt Ideal))
    (x7 x8 x9 x10 : (⟨S1024, .f32⟩ : BufTy).Contents (Elt Ideal)) (r : Fin 4096) (j : Fin 1024) :
    val_main_v29 (F := Ideal) x0 x1 x3 x4 x5 x6 x7 x8 x9 x10 (ix2 r j) = Ideal.logistic (Cert.Cell.pre x0 x1 (val_main_v1 (F := Ideal) x3 x4 x5 x6) (val_main_v2 (F := Ideal) x7 x8 x9 x10) r (Cert.Cell.col 3 j)) := by
  rw [val_main_v29_apply, val_main_v28_apply, val_main_cst_4_apply, val_main_v27_apply, val_main_v26_apply, val_main_cst_3_apply, val_main_v25_apply, val_main_v24_apply, v23_eq]
  exact host_logistic _

/-- The new cell state at (r, j). -/
theorem v32_eq (x0 x1 x2 : (⟨S4096x1024, .f32⟩ : BufTy).Contents (Elt Ideal)) (x3 x4 x5 x6 : (⟨S2048x1024, .f32⟩ : BufTy).Contents (Elt Ideal))
    (x7 x8 x9 x10 : (⟨S1024, .f32⟩ : BufTy).Contents (Elt Ideal)) (r : Fin 4096) (j : Fin 1024) :
    val_main_v32 (F := Ideal) x0 x1 x2 x3 x4 x5 x6 x7 x8 x9 x10 (ix2 r j)
      = Cert.Cell.cNewAt x0 x1 x2 (val_main_v1 (F := Ideal) x3 x4 x5 x6) (val_main_v2 (F := Ideal) x7 x8 x9 x10) r j := by
  rw [val_main_v32_apply, val_main_v30_apply, val_main_v31_apply, v13_eq, v20_eq, val_main_v22_apply, v21_eq,
    Ideal.addf_def, Ideal.mulf_def, Ideal.mulf_def, Ideal.hostUnary_tanh_def]
  rfl

/-- The new hidden state at (r, j). -/
theorem v34_eq (x0 x1 x2 : (⟨S4096x1024, .f32⟩ : BufTy).Contents (Elt Ideal)) (x3 x4 x5 x6 : (⟨S2048x1024, .f32⟩ : BufTy).Contents (Elt Ideal))
    (x7 x8 x9 x10 : (⟨S1024, .f32⟩ : BufTy).Contents (Elt Ideal)) (r : Fin 4096) (j : Fin 1024) :
    val_main_v34 (F := Ideal) x0 x1 x2 x3 x4 x5 x6 x7 x8 x9 x10 (ix2 r j)
      = Cert.Cell.hNewAt x0 x1 x2 (val_main_v1 (F := Ideal) x3 x4 x5 x6) (val_main_v2 (F := Ideal) x7 x8 x9 x10) r j := by
  rw [val_main_v34_apply, v29_eq, val_main_v33_apply, v32_eq, Ideal.mulf_def, Ideal.hostUnary_tanh_def]
  rfl

/-! ## The run -/

/-- Every weakly fair execution of the reference ends with the new hidden state in its first result and the new cell
    state in its second, the arguments unchanged. -/
theorem run_cell (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v34) = Cert.Cell.hNew (m ((c.tc : Thread nD τ).loc main_arg0)) (m ((c.tc : Thread nD τ).loc main_arg1)) (m ((c.tc : Thread nD τ).loc main_arg2)) (wAll m c) (bAll m c)
      ∧ r.2.mem ((c.tc : Thread nD τ).loc main_v32) = Cert.Cell.cNew (m ((c.tc : Thread nD τ).loc main_arg0)) (m ((c.tc : Thread nD τ).loc main_arg1)) (m ((c.tc : Thread nD τ).loc main_arg2)) (wAll m c) (bAll m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun _ h c => ⟨(h c).1.trans ?_, (h c).2.1.trans ?_, (h c).2.2⟩) (Value.run (F := Ideal) m ρ)
  · funext y
    obtain ⟨r, j, rfl⟩ : ∃ r j, y = ix2 r j := ⟨_, _, eq_ix2 y⟩
    rw [val_main_v34_eq]
    exact v34_eq _ _ _ _ _ _ _ _ _ _ _ r j
  · funext y
    obtain ⟨r, j, rfl⟩ : ∃ r j, y = ix2 r j := ⟨_, _, eq_ix2 y⟩
    rw [val_main_v32_eq]
    exact v32_eq _ _ _ _ _ _ _ _ _ _ _ r j

/-- Every weakly fair execution of the reference leaves its arguments as they were. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => (h c).2.2) (run_cell m ρ)

end Cert.ReferenceIdeal.RefCell

end
-- ==== Proof.lean ====
/-
  The certificate of the LSTM cell kernel against its reference.

  Both programs compute, over the extended reals, the cell of Proof/CellSpec.lean: the four gates' pre-activations are
  one [4096, 2048] × [2048, 4096] product plus the bias, the kernel taking the product as the sum of its two halves
  (the input's rows of the weights, then the hidden state's) and the reference as one contraction over all 2048 rows;
  the logistic function is the kernel's one operation and the reference's quotient 1 / (1 + e^(−z)), which is its
  definition; the change of the weights' and the blocks' float format is the identity. Nothing in the identification
  needs the inputs finite: a sum is the sum of its halves in any commutative monoid.

  The kernel's frame: its grid is 2 × 4; at the first point of each half it copies the weights from HBM into a scratch
  buffer by a transfer of its own and waits for it, and at the other points it reads the scratch as the point before
  left it. The frame is proved over the library's launch for bodies with transfers of their own, with an invariant
  that names the scratch's contents from the first point on (Proof/KernelIdeal/Frame.lean; Proof/Kernel/Frame.lean
  is the same text at the word-level instance). The reference's frame is its run with the results dropped.
-/
import proofs.«422948_j83262236000379_3_alg».proof.Defs
import proofs.«422948_j83262236000379_3_alg».proof.Proof.Gen.Kernel
import proofs.«422948_j83262236000379_3_alg».proof.Proof.Gen.KernelIdeal
import proofs.«422948_j83262236000379_3_alg».proof.Proof.Gen.ReferenceIdeal
import proofs.«422948_j83262236000379_3_alg».proof.Proof.Gen.Pre_finite_inputs
import proofs.«422948_j83262236000379_3_alg».proof.Proof.Kernel.Frame
import proofs.«422948_j83262236000379_3_alg».proof.Proof.KernelIdeal.Frame
import proofs.«422948_j83262236000379_3_alg».proof.Proof.KernelIdeal.ArrayCell
import proofs.«422948_j83262236000379_3_alg».proof.Proof.RefCell
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_kernel : Cert.frame_Kernel := fun m ρ _ => Cert.Kernel.Fr.frame m ρ
/-- So does the kernel read over the extended reals. -/
theorem frame_kernelIdeal : Cert.frame_KernelIdeal := fun m ρ _ => Cert.KernelIdeal.Fr.frame m ρ
/-- And the reference. -/
theorem frame_referenceIdeal : Cert.frame_ReferenceIdeal := fun m ρ _ => Cert.ReferenceIdeal.RefCell.frame m ρ
/-- The idealization rewrote no operation. -/
theorem preserves : Cert.preserves_Kernel_KernelIdeal := trivial

/-- From memories that agree on the eleven arguments both programs end with the new hidden state and the new cell
    state of the specification, over the same weights side by side and the same biases end to end. -/
theorem algebraic : Cert.algebraic_KernelIdeal_ReferenceIdeal := by
  intro m ρ m' ρ' _ hagree
  refine ⟨_, _, Cert.KernelIdeal.Fr.run_cell m ρ, ?_⟩
  refine (θ_run Cert.ReferenceIdeal.defs _ _).mono (fun r h c => ?_) (Cert.ReferenceIdeal.RefCell.run_cell m' ρ')
  obtain ⟨a0, a1, a2, a3, a4, a5, a6, a7, a8, a9, a10⟩ := hagree c
  obtain ⟨hh, hc, hrest⟩ := h c
  refine ⟨hh.trans ?_, hc.trans ?_, hrest⟩
  · unfold Cert.ReferenceIdeal.RefCell.wAll Cert.ReferenceIdeal.RefCell.bAll Cert.KernelIdeal.Fr.wAllK Cert.KernelIdeal.Fr.bAllK
    rw [a0, a1, a2, a3, a4, a5, a6, a7, a8, a9, a10]
  · unfold Cert.ReferenceIdeal.RefCell.wAll Cert.ReferenceIdeal.RefCell.bAll Cert.KernelIdeal.Fr.wAllK Cert.KernelIdeal.Fr.bAllK
    rw [a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
